-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S24x1024x32 : Shape := ⟨3, ![24, 1024, 32]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S24x1024x32 : S_.BroadcastsInDim S24x1024x32 (![] : Fin 0 → Fin S24x1024x32.rank)
  reducesTo_S24x1024x32_S_d0_1_2 : S24x1024x32.ReducesTo [0, 1, 2] S_

variable [Facts]

def fn_part1 {F : FTy → Type} [FloatOps F] (main_v13 : IVec S_ 1) (main_v16 : IVec S24x1024x32 1) : IVec S_ 1 :=
  let main_c_5 : IVec S_ 1 := constantI S_ 1 1#1
  let main_v17 : IVec S_ 1 := (fun x v => Host.reduce IntOp.andi x v reducesTo_S24x1024x32_S_d0_1_2 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S24x1024x32 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S24x1024x32 .f32 := Host.absf main_arg3
  let main_cst_4 : FVec F S_ .f32 := constant S_ .f32 0x7F800000#32
  let main_v15 : FVec F S24x1024x32 .f32 := broadcastInDim S24x1024x32 ![] bcast_S_S24x1024x32 main_cst_4
  let main_v16 : IVec S24x1024x32 1 := cmpf .olt main_v14 main_v15
  fn_part1 (F := F) main_v13 main_v16
-- ==== Kernel.lean ====
abbrev S4096x1024 : Shape := ⟨2, ![4096, 1024]⟩
abbrev S24x1024x32 : Shape := ⟨3, ![24, 1024, 32]⟩
abbrev S_ : Shape := ⟨0, ![]⟩
abbrev S1024x32 : Shape := ⟨2, ![1024, 32]⟩
abbrev S1024x128 : Shape := ⟨2, ![1024, 128]⟩
abbrev S4096x128 : Shape := ⟨2, ![4096, 128]⟩
abbrev S4096x4096 : Shape := ⟨2, ![4096, 4096]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 16
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S24x1024x32, .f32⟩
  | .hbm, ⟨4, _⟩ => ⟨S_, .f32⟩
  | .hbm, ⟨5, _⟩ => ⟨S1024x32, .f32⟩
  | .hbm, ⟨6, _⟩ => ⟨S_, .f32⟩
  | .hbm, ⟨7, _⟩ => ⟨S1024x32, .f32⟩
  | .hbm, ⟨8, _⟩ => ⟨S1024x32, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S4096x128, .f32⟩
  | .hbm, ⟨13, _⟩ => ⟨S4096x128, .f32⟩
  | .hbm, ⟨14, _⟩ => ⟨S4096x4096, .f32⟩
  | .hbm, ⟨15, _⟩ => ⟨S4096x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S4096x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1, .f32⟩
  | .local _ .vmem, ⟨10, _⟩ => ⟨S1024x1, .f32⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v27 : BitVec 32 := Scalar.muli arg1 c1024_i32
  v27
def k0_off1 (i : grid0.Coords) : Fin 2 → Nat :=
  let arg1 : BitVec 32 := BitVec.ofNat 32 (i 1).val
  let c1024_i32 : BitVec 32 := 1024#32
  let v27 : BitVec 32 := Scalar.muli arg1 c1024_i32
  let v28 : BitVec 32 := v27
  let v29 : Index := Scalar.indexCast v28
  let c0_16 : Index := 0#32
  ![v29.toNat, 0]
def k0_cond2 (i : grid0.Coords) : BitVec 1 :=
  let arg1 : BitVec 32 := BitVec.ofNat 32 (i 1).val
  let c3_i32 : BitVec 32 := 3#32
  let v44 : BitVec 1 := Scalar.cmpi .eq arg1 c3_i32
  let v45 : BitVec 32 := Scalar.extui v44
  let c0_i32_24 : BitVec 32 := 0#32
  let v46 : BitVec 1 := Scalar.cmpi .ne v45 c0_i32_24
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S24x1024x32_S1024x32_d0 : S24x1024x32.ReducesTo [0] S1024x32
  h_S_ : 0 < S_.numel
  bcast_S_S1024x32 : S_.BroadcastsInDim S1024x32 (![] : Fin 0 → Fin S1024x32.rank)
  pads_S1024x32_S1024x128_000_0960 : S1024x32.Pads (![0, 0] : Fin 2 → Nat) ![0, 96] ![0, 0] S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  dot_S4096x1024_S1024x128_S4096x128_1_0_0_1_n_n_wf : DotDims.WF S4096x1024 S1024x128 S4096x128 [1] [0] [0] [1] [] []
  dot_S1024x128_S1024x128_S1024x1024_1_1_0_0_n_n_wf : DotDims.WF S1024x128 S1024x128 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x1024.size a ≤ S4096x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .f32 = 32 ∨ (Rect.block (s := S4096x1024) S4096x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x1024.size a
  hwx0_4 : ∀ i : grid0.Coords, EltTy.bits .f32 = 32 ∨ (Rect.block (s := S4096x1024) S1024x1024.size (cc0_transform_4 i) (hinb0_4 i)).WholeWords (EltTy.packing .f32)

variable [Facts₀]

def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v4) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S24x1024x32 : Shape := ⟨3, ![24, 1024, 32]⟩
abbrev S_ : Shape := ⟨0, ![]⟩
abbrev S1024x32 : Shape := ⟨2, ![1024, 32]⟩
abbrev S4096x32 : Shape := ⟨2, ![4096, 32]⟩
abbrev S32x4096 : Shape := ⟨2, ![32, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S24x1024x32, .f32⟩
  | .hbm, ⟨4, _⟩ => ⟨S_, .f32⟩
  | .hbm, ⟨5, _⟩ => ⟨S1024x32, .f32⟩
  | .hbm, ⟨6, _⟩ => ⟨S_, .f32⟩
  | .hbm, ⟨7, _⟩ => ⟨S1024x32, .f32⟩
  | .hbm, ⟨8, _⟩ => ⟨S1024x32, .f32⟩
  | .hbm, ⟨9, _⟩ => ⟨S4096x32, .f32⟩
  | .hbm, ⟨10, _⟩ => ⟨S4096x32, .f32⟩
  | .hbm, ⟨11, _⟩ => ⟨S32x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x4096, .f32⟩
  | .hbm, ⟨26, _⟩ => ⟨S4096x4096, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S24x1024x32_S1024x32_d0 : S24x1024x32.ReducesTo [0] S1024x32
  h_S_ : 0 < S_.numel
  bcast_S_S1024x32 : S_.BroadcastsInDim S1024x32 (![] : Fin 0 → Fin S1024x32.rank)
  transposes_S4096x32_S32x4096_1_0 : S4096x32.Transposes [1, 0] S32x4096
  reducesTo_S4096x4096_S4096_d1 : S4096x4096.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x32_S4096x32_1_0_0_1_n_n_wf : DotDims.WF S4096x1024 S1024x32 S4096x32 [1] [0] [0] [1] [] []
  dot_S4096x32_S32x4096_S4096x4096_1_0_0_1_n_n_wf : DotDims.WF S4096x32 S32x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x32_S4096x32_1_0_0_1_n_n : DotDims S4096x1024 S1024x32 S4096x32 where
  lhsContracting := [1]
  rhsContracting := [0]
  lhsNonContracting := [0]
  rhsNonContracting := [1]
  lhsBatch := []
  rhsBatch := []
  wf := dot_S4096x1024_S1024x32_S4096x32_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Pieces.lean ====
/-
  What each control case of the kernel body leaves in its output blocks and in the three scratch buffers it carries,
  as pure functions of the operand blocks and of what the scratch held before: the score block, the new running maximum,
  the new denominator, the new numerator, and at the last key block the quotient numerator / denominator.
-/
import proofs.«406827_j53678501265448_3_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

variable (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S4096x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
  (x0 : Vec F S1024x128 .f32) (x1 : Vec F S1024x128 .f32) (x2 : Vec F S4096x1024 .f32) (xs0 : Vec F S1024x1 .f32) (xs1 : Vec F S1024x1 .f32) (xs2 : Vec F S1024x1024 .f32)

theorem hz2 : (![0, 0] : Fin 2 → ℕ) = fun _ => 0 := by funext a; fin_cases a <;> rfl

/-- The 1024 rows of v that the body loads at key block i 1. -/
def vLd (i : grid0.Coords) (x2 : Vec F S4096x1024 .f32) : Vec F S1024x1024 .f32 :=
  View.ld x2 (Rect.unit (s := S4096x1024) (k0_off1 i) S1024x1024.size (k0_off1_inb i))

/-- The new running maximum from the two operand blocks and the old maximum. -/
def stepM (x0 x1 : Vec F S1024x128 .f32) (s0 : Vec F S1024x1 .f32) : FVec F S1024x1 .f32 := k0_pay2 (k0_pay8 x0 x1 s0)
/-- The new denominator from the operand blocks, the old maximum and the old denominator. -/
def stepL (x0 x1 : Vec F S1024x128 .f32) (s0 s1 : Vec F S1024x1 .f32) : FVec F S1024x1 .f32 := k0_pay11 x0 x1 s0 s0 s1
/-- The new numerator from the operand blocks, the rows of v, the old maximum and the old numerator. -/
def stepA (i : grid0.Coords) (x0 x1 : Vec F S1024x128 .f32) (x2 : Vec F S4096x1024 .f32) (s0 : Vec F S1024x1 .f32) (s2 : Vec F S1024x1024 .f32) : FVec F S1024x1024 .f32 :=
  k0_pay1 (k0_pay9 x0 x1 s0 s0) (k0_pay10 x0 x1 s0) (k0_pay12 (vLd i x2)) s2

theorem out0_A_3_eq (hc0 : cond0_0 i) (hc1 : ¬cond0_1 i) :
    out0_A_3 c i arg2 harg2 arg3 harg3 arg4 harg4 arg5 harg5 arg6 harg6 arg7 harg7 arg8 harg8 arg9 harg9 hc0 hc1 x0 x1 x2 = k0_pay7 x0 x1 := by
  unfold out0_A_3
  rw [View.read_writes_eq_canon _ _ _ (cover0_A_3 c i arg2 harg2 arg3 harg3 arg4 harg4 arg5 harg5 arg6 harg6 arg7 harg7 arg8 harg8 arg9 harg9 hc0 hc1 x0 x1 x2)]
  unfold kernelRun0_A; dsimp only; sl_unfold_words
  rw [View.canon_unit_zero (S := S1024x1024) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem sout0_A_0_eq (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 = stepM x0 x1 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A; dsimp only; sl_unfold_words
  rw [View.canon_cons_unit_zero (S := S1024x1) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem sout0_A_1_eq (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 = stepL x0 x1 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A; dsimp only; sl_unfold_words
  rw [View.canon_cons_unit_zero (S := S1024x1) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem sout0_A_2_eq (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 = stepA i x0 x1 x2 (k0_pay4 (F := F)) (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A; dsimp only; sl_unfold_words
  rw [View.canon_cons_unit_zero (S := S1024x1024) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem out0_B_3_eq (hc0 : ¬cond0_0 i) (hc1 : ¬cond0_1 i) :
    out0_B_3 c i arg2 harg2 arg3 harg3 arg4 harg4 arg5 harg5 arg6 harg6 arg7 harg7 arg8 harg8 arg9 harg9 hc0 hc1 x0 x1 x2 xs0 xs1 xs2 = k0_pay7 x0 x1 := by
  unfold out0_B_3
  rw [View.read_writes_eq_canon _ _ _ (cover0_B_3 c i arg2 harg2 arg3 harg3 arg4 harg4 arg5 harg5 arg6 harg6 arg7 harg7 arg8 harg8 arg9 harg9 hc0 hc1 x0 x1 x2 xs0 xs1 xs2)]
  unfold kernelRun0_B; dsimp only; sl_unfold_words
  rw [View.canon_unit_zero (S := S1024x1024) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem sout0_B_0_eq (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 xs0 xs1 xs2 = stepM x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2)]
  unfold kernelRun0_B; dsimp only; sl_unfold_words
  rw [View.canon_unit_zero (S := S1024x1) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem sout0_B_1_eq (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 xs0 xs1 xs2 = stepL x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2)]
  unfold kernelRun0_B; dsimp only; sl_unfold_words
  rw [View.canon_unit_zero (S := S1024x1) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem sout0_B_2_eq (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 x2 xs0 xs1 xs2 = stepA i x0 x1 x2 xs0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2)]
  unfold kernelRun0_B; dsimp only; sl_unfold_words
  rw [View.canon_unit_zero (S := S1024x1024) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem out0_C_3_eq (hc0 : ¬cond0_0 i) (hc1 : cond0_1 i) :
    out0_C_3 c i arg2 harg2 arg3 harg3 arg4 harg4 arg5 harg5 arg6 harg6 arg7 harg7 arg8 harg8 arg9 harg9 hc0 hc1 x0 x1 x2 xs0 xs1 xs2 = k0_pay7 x0 x1 := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2)]
  unfold kernelRun0_C; dsimp only; sl_unfold_words
  rw [View.canon_unit_zero (S := S1024x1024) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem sout0_C_0_eq (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 xs0 xs1 xs2 = stepM x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2)]
  unfold kernelRun0_C; dsimp only; sl_unfold_words
  rw [View.canon_unit_zero (S := S1024x1) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem sout0_C_1_eq (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 xs0 xs1 xs2 = stepL x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2)]
  unfold kernelRun0_C; dsimp only; sl_unfold_words
  rw [View.canon_unit_zero (S := S1024x1) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem sout0_C_2_eq (hc0 : ¬cond0_0 i) (hc1 : cond0_1 i) :
    sout0_C_2 c i arg2 harg2 arg3 harg3 arg4 harg4 arg5 harg5 arg6 harg6 arg7 harg7 arg8 harg8 arg9 harg9 hc0 hc1 x0 x1 x2 xs0 xs1 xs2 = stepA i x0 x1 x2 xs0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2)]
  unfold kernelRun0_C; dsimp only; sl_unfold_words
  rw [View.canon_unit_zero (S := S1024x1024) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

theorem out0_C_4_eq (hc0 : ¬cond0_0 i) (hc1 : cond0_1 i) :
    out0_C_4 c i arg2 harg2 arg3 harg3 arg4 harg4 arg5 harg5 arg6 harg6 arg7 harg7 arg8 harg8 arg9 harg9 hc0 hc1 x0 x1 x2 xs0 xs1 xs2 = k0_pay3 (stepA i x0 x1 x2 xs0 xs2) (stepL x0 x1 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1 xs2)]
  unfold kernelRun0_C; dsimp only; sl_unfold_words
  rw [View.canon_unit_zero (S := S1024x1024) hz2]
  simp only [View.readAt_eq_ld, harg2.read_unread, harg3.read_unread, harg4.read_unread, harg5.read_unread, harg6.read_unread, harg7.read_unread, harg8.read_unread, harg9.read_unread, View.ld_unit_zero (S := S1024x128) hz2, View.ld_unit_zero (S := S1024x1) hz2, View.ld_unit_zero (S := S1024x1024) hz2, View.readCov_unit_zero (S := S1024x1) _ hz2, View.readCov_unit_zero (S := S1024x1024) _ hz2]
  try rfl

end Cert.KernelIdeal.Pieces
end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.LibRowsDot.lean ====
/-
  A matrix product of an M-by-K array with an N-by-K array, both contracted on their last axis, read at an entry.

  With dimension numbers "columns of the left against columns of the right, no batch axis", the operand indices
  at result entry (r, c) and contraction position k are (r, k) on the left and (c, k) on the right: each result
  entry is the dot product of a row of the left with a row of the right. So, over the extended reals, a product
  accumulated into the zero array and a host dot_general are both  ∑ k, lhs (r, k) * rhs (c, k).  Stated for any
  dimension record of that form, whatever its extents.
-/
import Idealize.ShloMosaic.Lib.ValueIdx
import Idealize.ShloMosaic.PureOps.Ideal.Laws

noncomputable section

namespace Idealize.ShloMosaic.RowsDot

open Idealize.ShloMosaic Idealize.ShloMosaic.ValueIdx

variable {M K N : Nat}

/-- The dimension numbers of an M×K by N×K product, rows against rows: last axis against last axis, nothing batched. -/
structure IsRowsByRows (d : DotDims (⟨2, ![M, K]⟩ : Shape) (⟨2, ![N, K]⟩ : Shape) (⟨2, ![M, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![M, K]⟩ : Shape) (⟨2, ![N, K]⟩ : Shape) (⟨2, ![M, N]⟩ : Shape)}

/-- One axis is contracted. -/
theorem IsRowsByRows.rank_contr (h : IsRowsByRows d) : d.contr.rank = 1 := by
  rw [d.rank_contr, h.lc]; rfl

/-- Its extent is K. -/
theorem IsRowsByRows.size_contr (h : IsRowsByRows d) : d.contr.size ⟨0, by rw [h.rank_contr]; exact Nat.one_pos⟩ = K := by
  have e := d.size_contr 0 (by rw [h.lc]; exact Nat.one_pos)
  rw [e]
  simp only [h.lc, List.getElem_cons_zero]
  rfl

/-- A result index read at two positions that are the same number is the same coordinate. -/
private theorem coord_congr (j : (⟨2, ![M, N]⟩ : Shape).Idx) (p q : Nat) (hp : p < (⟨2, ![M, N]⟩ : Shape).rank)
    (hq : q < (⟨2, ![M, N]⟩ : Shape).rank) (e : p = q) : (j ⟨p, hp⟩).val = (j ⟨q, hq⟩).val := by
  subst e; rfl

/-- The left operand's row is the result's row. -/
theorem IsRowsByRows.lhs_row (h : IsRowsByRows d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction position. -/
theorem IsRowsByRows.lhs_col (h : IsRowsByRows d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the result's column. -/
theorem IsRowsByRows.rhs_row (h : IsRowsByRows d) (j : (⟨2, ![M, N]⟩ : Shape).Idx) (k : d.contr.Idx) :
    (d.rhsIdx j k 0).val = (j 1).val := by
  have hb : (0 : Fin (⟨2, ![N, K]⟩ : Shape).rank) ∉ d.rhsBatch := by rw [h.rb]; exact List.not_mem_nil
  have hn : (0 : Fin (⟨2, ![N, K]⟩ : Shape).rank) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

/-- The right operand's column is the contraction position. -/
theorem IsRowsByRows.rhs_col (h : IsRowsByRows d) (j : (⟨2, ![M, N]⟩ : Shape).Idx) (k : d.contr.Idx) :
    (d.rhsIdx j k 1).val = (k ⟨0, by rw [h.rank_contr]; exact Nat.one_pos⟩).val :=
  d.rhsIdx_val_of_single h.rc j k

/-- The sum over the contraction shape's positions, re-indexed by its one coordinate: entry (r, c) of the product
    is the dot product of row r of the left operand with row c of the right operand. -/
theorem IsRowsByRows.sum_contr (h : IsRowsByRows d) {α : Type} [AddCommMonoid α] [Mul α]
    (lhs : (⟨2, ![M, K]⟩ : Shape).Idx → α) (rhs : (⟨2, ![N, K]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 c k) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 c k :=
    funext fun a => Fin.ext (by
      match a with
      | ⟨0, _⟩ => exact h.rhs_row _ _
      | ⟨1, _⟩ => exact (h.rhs_col _ _).trans hk)
  rw [el, er]

/-- A kernel's product into the zero accumulator, over the extended reals, at entry (r, c). -/
theorem IsRowsByRows.matmul_zero_apply (h : IsRowsByRows d) {φ₁ φ₂ : FTy} (prec : Option ContractPrecision)
    (lhs : FVec Ideal (⟨2, ![M, K]⟩ : Shape) φ₁) (rhs : FVec Ideal (⟨2, ![N, K]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 c k) := by
  rw [Ideal.matmul_constant_zero_apply]
  exact h.sum_contr lhs rhs r c

/-- A host dot_general, over the extended reals, at entry (r, c). -/
theorem IsRowsByRows.dotGeneral_apply (h : IsRowsByRows d) {φ₁ φ₂ : FTy} (prec : Option ContractPrecision) (sched : HostSchedule)
    (lhs : FVec Ideal (⟨2, ![M, K]⟩ : Shape) φ₁) (rhs : FVec Ideal (⟨2, ![N, K]⟩ : Shape) φ₂) (r : Fin M) (c : Fin N) :
    FloatOps.dotGeneral d prec sched lhs rhs (ix2 r c) = ∑ k : Fin K, lhs (ix2 r k) * rhs (ix2 c k) := by
  rw [Ideal.dotGeneral_apply]
  exact h.sum_contr lhs rhs r c

end Idealize.ShloMosaic.RowsDot

end
-- ==== Proof.StepAt.lean ====
/-
  The kernel body's arithmetic read entry by entry over the extended reals: the score block is the dot product of a query
  row with a key row; the new running maximum is the maximum of the old one and the largest score of the row; the new
  denominator is exp (old maximum - new maximum) times the old one plus the row's sum of exp (score - new maximum); the
  new numerator likewise with each exponential multiplied by the entry of v; the last key block divides numerator by
  denominator. The rows of v a point loads are rows (key block) * 1024 … of the whole array.
-/
import proofs.«406827_j53678501265448_3_alg».proof.Proof.Pieces
import proofs.«406827_j53678501265448_3_alg».proof.Proof.LibPlainDot
import proofs.«406827_j53678501265448_3_alg».proof.Proof.LibRowsDot
import Idealize.ShloMosaic.Lib.ValueIdx
import Idealize.ShloMosaic.Lib.Pipeline.Value
import Idealize.ShloMosaic.PureOps.Ideal.Laws

set_option maxRecDepth 16384

noncomputable section

namespace Cert.KernelIdeal.StepAt

open Cert.KernelIdeal Cert.KernelIdeal.Gen Cert.KernelIdeal.Pieces Idealize.ShloMosaic Idealize.ShloMosaic.ValueIdx Idealize.ShloMosaic.TcCoe Idealize.SL.Sem

abbrev z1 : Fin 1 := ⟨0, Nat.one_pos⟩

/-- The printed literals. -/
abbrev negInfL : EReal := Ideal.ofBits .f32 0xFF800000#32
abbrev zeroL : EReal := Ideal.ofBits .f32 0x00000000#32

theorem col_of_vec {α : Type} (v : S1024.Idx → α) (p : Fin 1024) :
    shapeCast S1024x1 v Facts₀.shapeCasts_S1024_S1024x1 (ix2 p z1) = v (ix1 p) := by
  refine shapeCast_apply v _ (ix2 p z1) (ix1 p) ?_
  rw [Shape.rowMajor_val_one, Shape.rowMajor_val_two]
  show p.val = p.val * 1 + 0
  omega

theorem bcast_col {α : Type} (v : S1024x1.Idx → α) (p c : Fin 1024) :
    broadcastTo S1024x1024 v Facts₀.broadcasts_S1024x1_S1024x1024 (ix2 p c) = v (ix2 p z1) := by
  refine broadcastTo_apply v _ (ix2 p c) (ix2 p z1) ?_
  intro a
  match a with
  | ⟨0, _⟩ => rfl
  | ⟨1, _⟩ => rfl

theorem lift_row (p c : Fin 1024) :
    (Facts₀.reduces_S1024x1024_S1024).lift (ix1 p) c = ix2 p c := by
  funext a
  match a with
  | ⟨0, _⟩ => rfl
  | ⟨1, _⟩ => rfl

theorem score_at (x0 x1 : S1024x128.Idx → EReal) (p c : Fin 1024) :
    k0_pay7 (F := Ideal) x0 x1 (ix2 p c) = ∑ j : Fin 128, x0 (ix2 p j) * x1 (ix2 c j) := by
  unfold k0_pay7
  simp only [shapeCast_self]
  exact Idealize.ShloMosaic.RowsDot.IsRowsByRows.matmul_zero_apply (d := dot_S1024x128_S1024x128_S1024x1024_1_1_0_0_n_n) ⟨rfl, rfl, rfl, rfl, rfl, rfl⟩ none x0 x1 p c

theorem stepM_at (x0 x1 : S1024x128.Idx → EReal) (s0 : S1024x1.Idx → EReal) (p : Fin 1024) :
    stepM (F := Ideal) x0 x1 s0 (ix2 p z1)
      = max (s0 (ix2 p z1)) ((Finset.univ : Finset (Fin 1024)).fold max negInfL (fun c => k0_pay7 (F := Ideal) x0 x1 (ix2 p c))) := by
  unfold stepM k0_pay2 k0_pay8
  simp only [shapeCast_self]
  rw [maximumf_apply, col_of_vec]
  refine congrArg (max (s0 (ix2 p z1))) ?_
  refine (Ideal.multiReduction_maximumf_single (φ := .f32) (k0_pay7 (F := Ideal) x0 x1) 0xFF800000#32 Facts₀.reduces_S1024x1024_S1024 (.inl rfl) rfl (ix1 p)).trans ?_
  show (Finset.univ : Finset (Fin 1024)).fold max negInfL (fun c : Fin 1024 => k0_pay7 (F := Ideal) x0 x1 ((Facts₀.reduces_S1024x1024_S1024).lift (ix1 p) c)) = _
  exact congrArg (fun f => (Finset.univ : Finset (Fin 1024)).fold max negInfL f) (funext fun c : Fin 1024 => congrArg (k0_pay7 (F := Ideal) x0 x1) (lift_row p c))

theorem stepL_at (x0 x1 : S1024x128.Idx → EReal) (s0 s1 : S1024x1.Idx → EReal) (p : Fin 1024) :
    stepL (F := Ideal) x0 x1 s0 s1 (ix2 p z1)
      = Ideal.exp (s0 (ix2 p z1) - stepM (F := Ideal) x0 x1 s0 (ix2 p z1)) * s1 (ix2 p z1)
        + ∑ c : Fin 1024, Ideal.exp (k0_pay7 (F := Ideal) x0 x1 (ix2 p c) - stepM (F := Ideal) x0 x1 s0 (ix2 p z1)) := by
  unfold stepL k0_pay11 k0_pay9 k0_pay10 stepM k0_pay2
  simp only [shapeCast_self]
  rw [addf_apply, mulf_apply, col_of_vec]
  refine congrArg₂ (· + ·) rfl ?_
  refine (Ideal.multiReduction_add_single (φ := .f32) _ 0x00000000#32 Facts₀.reduces_S1024x1024_S1024 (.inl rfl) rfl (ix1 p)).trans ?_
  show ∑ c : Fin 1024, Ideal.exp (k0_pay7 (F := Ideal) x0 x1 ((Facts₀.reduces_S1024x1024_S1024).lift (ix1 p) c) - broadcastTo S1024x1024 (k0_pay8 (F := Ideal) x0 x1 s0) Facts₀.broadcasts_S1024x1_S1024x1024 ((Facts₀.reduces_S1024x1024_S1024).lift (ix1 p) c)) = _
  refine Finset.sum_congr rfl fun (c : Fin 1024) _ => ?_
  rw [lift_row p c, bcast_col]

theorem rescale_at (x0 x1 : S1024x128.Idx → EReal) (s0 : S1024x1.Idx → EReal) (p : Fin 1024) :
    k0_pay9 (F := Ideal) x0 x1 s0 s0 (ix2 p z1) = Ideal.exp (s0 (ix2 p z1) - stepM (F := Ideal) x0 x1 s0 (ix2 p z1)) := by
  unfold k0_pay9 stepM k0_pay2
  simp only [shapeCast_self]
  rfl

theorem expo_at (x0 x1 : S1024x128.Idx → EReal) (s0 : S1024x1.Idx → EReal) (p c : Fin 1024) :
    k0_pay10 (F := Ideal) x0 x1 s0 (ix2 p c) = Ideal.exp (k0_pay7 (F := Ideal) x0 x1 (ix2 p c) - stepM (F := Ideal) x0 x1 s0 (ix2 p z1)) := by
  unfold k0_pay10 stepM k0_pay2
  simp only [shapeCast_self]
  show Ideal.exp (k0_pay7 (F := Ideal) x0 x1 (ix2 p c) - broadcastTo S1024x1024 (k0_pay8 (F := Ideal) x0 x1 s0) Facts₀.broadcasts_S1024x1_S1024x1024 (ix2 p c)) = _
  rw [bcast_col]

theorem stepA_at (i : grid0.Coords) (x0 x1 : S1024x128.Idx → EReal) (x2 : S4096x1024.Idx → EReal) (s0 : S1024x1.Idx → EReal) (s2 : S1024x1024.Idx → EReal) (p d : Fin 1024) :
    stepA (F := Ideal) i x0 x1 x2 s0 s2 (ix2 p d)
      = Ideal.exp (s0 (ix2 p z1) - stepM (F := Ideal) x0 x1 s0 (ix2 p z1)) * s2 (ix2 p d)
        + ∑ c : Fin 1024, Ideal.exp (k0_pay7 (F := Ideal) x0 x1 (ix2 p c) - stepM (F := Ideal) x0 x1 s0 (ix2 p z1)) * vLd (F := Ideal) i x2 (ix2 c d) := by
  unfold stepA k0_pay1 k0_pay12
  simp only [shapeCast_self]
  rw [addf_apply, mulf_apply, bcast_col, rescale_at]
  refine congrArg₂ (· + ·) rfl ?_
  refine (Idealize.ShloMosaic.PlainDot.IsPlain.matmul_zero_apply (d := dot_S1024x1024_S1024x1024_S1024x1024_1_0_0_1_n_n) ⟨rfl, rfl, rfl, rfl, rfl, rfl⟩ none _ _ p d).trans ?_
  refine Finset.sum_congr rfl fun c _ => ?_
  rw [truncf_apply, truncf_apply, expo_at]

theorem quot_at (a : S1024x1024.Idx → EReal) (l : S1024x1.Idx → EReal) (p d : Fin 1024) :
    k0_pay3 (F := Ideal) a l (ix2 p d) = Ideal.div (a (ix2 p d)) (l (ix2 p z1)) := by
  unfold k0_pay3
  rw [divf_apply, bcast_col]

theorem m_init_at (p : Fin 1024) : k0_pay4 (F := Ideal) (ix2 p z1) = negInfL := by
  unfold k0_pay4; simp only [shapeCast_self]; rfl
theorem l_init_at (p : Fin 1024) : k0_pay5 (F := Ideal) (ix2 p z1) = zeroL := by
  unfold k0_pay5; simp only [shapeCast_self]; rfl
theorem a_init_at (p d : Fin 1024) : k0_pay6 (F := Ideal) (ix2 p d) = zeroL := by
  unfold k0_pay6; simp only [shapeCast_self]; rfl

theorem off_facts : ∀ t : Fin cfg0.N, k0_off1 (grid0.coords t) 0 = (t.val % 4) * 1024 ∧ k0_off1 (grid0.coords t) 1 = 0 :=
  (by decide +kernel : ∀ t : Fin grid0.N, k0_off1 (grid0.coords t) 0 = (t.val % 4) * 1024 ∧ k0_off1 (grid0.coords t) 1 = 0)

theorem vLd_at (t : Fin cfg0.N) (x2 : S4096x1024.Idx → EReal) (c d : Fin 1024) (hlt : (t.val % 4) * 1024 + c.val < 4096) :
    vLd (F := Ideal) (grid0.coords t) x2 (ix2 c d) = x2 (ix2 ⟨(t.val % 4) * 1024 + c.val, hlt⟩ d) := by
  unfold vLd
  show x2 ((Rect.unit (s := S4096x1024) (k0_off1 (grid0.coords t)) S1024x1024.size (Facts₀.k0_off1_inb (grid0.coords t))).emb (ix2 c d)) = _
  refine congrArg x2 (funext fun a => Fin.ext ?_)
  match a with
  | ⟨0, _⟩ =>
    show k0_off1 (grid0.coords t) 0 + 1 * c.val = (t.val % 4) * 1024 + c.val
    rw [(off_facts t).1]; omega
  | ⟨1, _⟩ =>
    show k0_off1 (grid0.coords t) 1 + 1 * d.val = d.val
    rw [(off_facts t).2]; omega

end Cert.KernelIdeal.StepAt
end
-- ==== Proof.State.lean ====
/-
  What the three carried scratch buffers hold after each grid point, as a recurrence over the key blocks of one query
  tile: at the first key block the step functions are applied to the initial contents (minus infinity, zero, zero), at
  every later key block to what the point before left.
-/
import proofs.«406827_j53678501265448_3_alg».proof.Proof.StepAt
import proofs.«406827_j53678501265448_3_alg».proof.Proof.Gen.KernelIdeal.Value

set_option maxRecDepth 16384

noncomputable section

namespace Cert.KernelIdeal.State

open Cert.KernelIdeal Cert.KernelIdeal.Gen Cert.KernelIdeal.Pieces Cert.KernelIdeal.StepAt Idealize.ShloMosaic Idealize.ShloMosaic.ValueIdx Idealize.ShloMosaic.TcCoe Idealize.SL.Sem

variable (m : (ℓ : Loc nD τ sig) → Buf (Elt Ideal) ℓ) (c : Dev nD)

/-- The query block, the key block and the whole of v as point t sees them. -/
abbrev qblk (t : Fin cfg0.N) : S1024x128.Idx → EReal := iblk m c 0 t
abbrev kblk (t : Fin cfg0.N) : S1024x128.Idx → EReal := iblk m c 1 t
abbrev vall (t : Fin cfg0.N) : S4096x1024.Idx → EReal := iblk m c 2 t

/-- The running maximum, denominator and numerator after point t. -/
def Mst (t : Fin cfg0.N) : S1024x1.Idx → EReal := (outsAt0 m c t.val t.isLt).2.2.1
def Lst (t : Fin cfg0.N) : S1024x1.Idx → EReal := (outsAt0 m c t.val t.isLt).2.2.2.1
def Ast (t : Fin cfg0.N) : S1024x1024.Idx → EReal := (outsAt0 m c t.val t.isLt).2.2.2.2

theorem pred_lt (t : Fin cfg0.N) : t.val - 1 < cfg0.N := Nat.lt_of_le_of_lt (Nat.sub_le _ _) t.isLt

theorem Mst_first (t : Fin cfg0.N) (h0 : t.val % 4 = 0) :
    Mst m c t = stepM (F := Ideal) (qblk m c t) (kblk m c t) (k0_pay4 (F := Ideal)) := by
  have h1 : ¬ t.val % 4 = 3 := by omega
  unfold Mst
  rw [outsAt0_A m c t h0 h1]; dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))

theorem Lst_first (t : Fin cfg0.N) (h0 : t.val % 4 = 0) :
    Lst m c t = stepL (F := Ideal) (qblk m c t) (kblk m c t) (k0_pay4 (F := Ideal)) (k0_pay5 (F := Ideal)) := by
  have h1 : ¬ t.val % 4 = 3 := by omega
  unfold Lst
  rw [outsAt0_A m c t h0 h1]; dsimp only
  exact sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))

theorem Ast_first (t : Fin cfg0.N) (h0 : t.val % 4 = 0) :
    Ast m c t = stepA (F := Ideal) (grid0.coords t) (qblk m c t) (kblk m c t) (vall m c t) (k0_pay4 (F := Ideal)) (k0_pay6 (F := Ideal)) := by
  have h1 : ¬ t.val % 4 = 3 := by omega
  unfold Ast
  rw [outsAt0_A m c t h0 h1]; dsimp only
  exact sout0_A_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))

theorem Mst_next (t : Fin cfg0.N) (h0 : ¬ t.val % 4 = 0) :
    Mst m c t = stepM (F := Ideal) (qblk m c t) (kblk m c t) (Mst m c ⟨t.val - 1, pred_lt t⟩) := by
  unfold Mst
  by_cases h1 : t.val % 4 = 3
  · rw [outsAt0_C m c t h0 h1]; dsimp only
    exact sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (outsAt0 m c (t.val - 1) (pred_lt t)).2.2.1 (outsAt0 m c (t.val - 1) (pred_lt t)).2.2.2.1 (outsAt0 m c (t.val - 1) (pred_lt t)).2.2.2.2 (fun h => h0 ((hcond0_0 t).mp h)) ((hcond0_1 t).mpr h1)
  · rw [outsAt0_B m c t h0 h1]; dsimp only
    exact sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (outsAt0 m c (t.val - 1) (pred_lt t)).2.2.1 (outsAt0 m c (t.val - 1) (pred_lt t)).2.2.2.1 (outsAt0 m c (t.val - 1) (pred_lt t)).2.2.2.2 (fun h => h0 ((hcond0_0 t).mp h)) (fun h => h1 ((hcond0_1 t).mp h))

theorem Lst_next (t : Fin cfg0.N) (h0 : ¬ t.val % 4 = 0) :
    Lst m c t = stepL (F := Ideal) (qblk m c t) (kblk m c t) (Mst m c ⟨t.val - 1, pred_lt t⟩) (Lst m c ⟨t.val - 1, pred_lt t⟩) := by
  unfold Lst Mst
  by_cases h1 : t.val % 4 = 3
  · rw [outsAt0_C m c t h0 h1]; dsimp only
    exact sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (outsAt0 m c (t.val - 1) (pred_lt t)).2.2.1 (outsAt0 m c (t.val - 1) (pred_lt t)).2.2.2.1 (outsAt0 m c (t.val - 1) (pred_lt t)).2.2.2.2 (fun h => h0 ((hcond0_0 t).mp h)) ((hcond0_1 t).mpr h1)
  · rw [outsAt0_B m c t h0 h1]; dsimp only
    exact sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (outsAt0 m c (t.val - 1) (pred_lt t)).2.2.1 (outsAt0 m c (t.val - 1) (pred_lt t)).2.2.2.1 (outsAt0 m c (t.val - 1) (pred_lt t)).2.2.2.2 (fun h => h0 ((hcond0_0 t).mp h)) (fun h => h1 ((hcond0_1 t).mp h))

theorem Ast_next (t : Fin cfg0.N) (h0 : ¬ t.val % 4 = 0) :
    Ast m c t = stepA (F := Ideal) (grid0.coords t) (qblk m c t) (kblk m c t) (vall m c t) (Mst m c ⟨t.val - 1, pred_lt t⟩) (Ast m c ⟨t.val - 1, pred_lt t⟩) := by
  unfold Ast Mst
  by_cases h1 : t.val % 4 = 3
  · rw [outsAt0_C m c t h0 h1]; dsimp only
    exact sout0_C_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (outsAt0 m c (t.val - 1) (pred_lt t)).2.2.1 (outsAt0 m c (t.val - 1) (pred_lt t)).2.2.2.1 (outsAt0 m c (t.val - 1) (pred_lt t)).2.2.2.2 (fun h => h0 ((hcond0_0 t).mp h)) ((hcond0_1 t).mpr h1)
  · rw [outsAt0_B m c t h0 h1]; dsimp only
    exact sout0_B_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (outsAt0 m c (t.val - 1) (pred_lt t)).2.2.1 (outsAt0 m c (t.val - 1) (pred_lt t)).2.2.2.1 (outsAt0 m c (t.val - 1) (pred_lt t)).2.2.2.2 (fun h => h0 ((hcond0_0 t).mp h)) (fun h => h1 ((hcond0_1 t).mp h))

/-- What every point leaves in the first output's block: the score block. -/
theorem out3_eq (t : Fin cfg0.N) : (outsAt0 m c t.val t.isLt).1 = k0_pay7 (F := Ideal) (qblk m c t) (kblk m c t) := by
  by_cases h0 : t.val % 4 = 0
  · have h1 : ¬ t.val % 4 = 3 := by omega
    rw [outsAt0_A m c t h0 h1]; dsimp only
    exact out0_A_3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))
  · by_cases h1 : t.val % 4 = 3
    · rw [outsAt0_C m c t h0 h1]; dsimp only
      exact out0_C_3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (outsAt0 m c (t.val - 1) (pred_lt t)).2.2.1 (outsAt0 m c (t.val - 1) (pred_lt t)).2.2.2.1 (outsAt0 m c (t.val - 1) (pred_lt t)).2.2.2.2 (fun h => h0 ((hcond0_0 t).mp h)) ((hcond0_1 t).mpr h1)
    · rw [outsAt0_B m c t h0 h1]; dsimp only
      exact out0_B_3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (outsAt0 m c (t.val - 1) (pred_lt t)).2.2.1 (outsAt0 m c (t.val - 1) (pred_lt t)).2.2.2.1 (outsAt0 m c (t.val - 1) (pred_lt t)).2.2.2.2 (fun h => h0 ((hcond0_0 t).mp h)) (fun h => h1 ((hcond0_1 t).mp h))

/-- What the last key block's point leaves in the second output's block: numerator over denominator. -/
theorem out4_eq (t : Fin cfg0.N) (h1 : t.val % 4 = 3) :
    (outsAt0 m c t.val t.isLt).2.1 = k0_pay3 (F := Ideal) (Ast m c t) (Lst m c t) := by
  have h0 : ¬ t.val % 4 = 0 := by omega
  rw [Ast_next m c t h0, Lst_next m c t h0]
  unfold Mst Lst Ast
  rw [outsAt0_C m c t h0 h1]; dsimp only
  exact out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (outsAt0 m c (t.val - 1) (pred_lt t)).2.2.1 (outsAt0 m c (t.val - 1) (pred_lt t)).2.2.2.1 (outsAt0 m c (t.val - 1) (pred_lt t)).2.2.2.2 (fun h => h0 ((hcond0_0 t).mp h)) ((hcond0_1 t).mpr h1)

end Cert.KernelIdeal.State
end
-- ==== Proof.Spec.lean ====
/-
  The two results as functions of the four argument arrays, entry by entry, over the extended reals.

  P = (sum over the 24 projections of Z) / 24 is a 1024-by-32 matrix; x and y are projected to 32 features per row,
  feat x r j = sum over k of x[r,k] * P[k,j]; the first result is the 4096-by-4096 matrix of scores
  score r c = sum over j of feat x r j * feat y c j.  The second result is softmax over each row of the scores, times v:
  with rowMax r the largest score of row r, expo r c = exp (score r c - rowMax r) and denom r their sum over the row,
  attnOut r d = sum over c of (expo r c / denom r) * v[c,d].
  The literals 0, -infinity and 24 are kept as the bit patterns the programs print.
-/
import Idealize.ShloMosaic.Lib.ValueIdx
import Idealize.ShloMosaic.PureOps.Ideal

noncomputable section

namespace Cert.Hand.Spec

open Idealize.ShloMosaic Idealize.ShloMosaic.ValueIdx

/-- Index types of the arguments and results. -/
abbrev XIdx := (⟨2, ![4096, 1024]⟩ : Shape).Idx
abbrev ZIdx := (⟨3, ![24, 1024, 32]⟩ : Shape).Idx
abbrev AIdx := (⟨2, ![4096, 4096]⟩ : Shape).Idx

/-- The printed literals: zero, minus infinity, twenty-four. -/
def zeroE : EReal := Ideal.ofBits .f32 0x00000000#32
def negInfE : EReal := Ideal.ofBits .f32 0xFF800000#32
def c24E : EReal := Ideal.ofBits .f32 0x41C00000#32

/-- The mean projection matrix: entry (k, j) is the sum of the 24 matrices' entries, divided by 24. -/
def proj (Z : ZIdx → EReal) (k : Fin 1024) (j : Fin 32) : EReal :=
  Ideal.div (zeroE + ∑ p : Fin 24, Z (ix3 p k j)) c24E

/-- Row r of x projected onto feature j. -/
def feat (x : XIdx → EReal) (Z : ZIdx → EReal) (r : Fin 4096) (j : Fin 32) : EReal :=
  ∑ k : Fin 1024, x (ix2 r k) * proj Z k j

/-- The score of query row r against key row c: the dot product of their 32 features. -/
def score (x y : XIdx → EReal) (Z : ZIdx → EReal) (r c : Fin 4096) : EReal :=
  ∑ j : Fin 32, feat x Z r j * feat y Z c j

/-- The largest score of row r (a fold of max from minus infinity, then max with minus infinity once more). -/
def rowMax (x y : XIdx → EReal) (Z : ZIdx → EReal) (r : Fin 4096) : EReal :=
  max negInfE ((Finset.univ : Finset (Fin 4096)).fold max negInfE (fun c => score x y Z r c))

/-- The shifted exponential of a score. -/
def expo (x y : XIdx → EReal) (Z : ZIdx → EReal) (r c : Fin 4096) : EReal :=
  Ideal.exp (score x y Z r c - rowMax x y Z r)

/-- The softmax denominator of row r. -/
def denom (x y : XIdx → EReal) (Z : ZIdx → EReal) (r : Fin 4096) : EReal :=
  zeroE + ∑ c : Fin 4096, expo x y Z r c

/-- Row r of softmax(scores) times column d of v. -/
def attnOut (x y v : XIdx → EReal) (Z : ZIdx → EReal) (r : Fin 4096) (d : Fin 1024) : EReal :=
  ∑ c : Fin 4096, Ideal.div (expo x y Z r c) (denom x y Z r) * v (ix2 c d)

/-- The first result, the scores, as an array. -/
def Gattn (x y : XIdx → EReal) (Z : ZIdx → EReal) : AIdx → EReal :=
  fun i => score x y Z ⟨(i 0).val, (i 0).isLt⟩ ⟨(i 1).val, (i 1).isLt⟩

/-- The second result as an array. -/
def Gout (x y v : XIdx → EReal) (Z : ZIdx → EReal) : XIdx → EReal :=
  fun i => attnOut x y v Z ⟨(i 0).val, (i 0).isLt⟩ ⟨(i 1).val, (i 1).isLt⟩

theorem Gattn_ix2 (x y : XIdx → EReal) (Z : ZIdx → EReal) (r c : Fin 4096) :
    Gattn x y Z (ix2 r c) = score x y Z r c := rfl

theorem Gout_ix2 (x y v : XIdx → EReal) (Z : ZIdx → EReal) (r : Fin 4096) (d : Fin 1024) :
    Gout x y v Z (ix2 r d) = attnOut x y v Z r d := rfl

end Cert.Hand.Spec

end
-- ==== Proof.HostK.lean ====
/-
  What the kernel program's host operations hand the pallas_call: x and y projected onto the mean projection matrix
  padded with 96 zero columns. The padded columns contribute nothing to a dot product of two projected rows, so the
  128-term dot product is the specification's 32-term score.
-/
import proofs.«406827_j53678501265448_3_alg».proof.Proof.Gen.KernelIdeal.Frame
import proofs.«406827_j53678501265448_3_alg».proof.Proof.Spec
import proofs.«406827_j53678501265448_3_alg».proof.Proof.LibPlainDot
import Idealize.ShloMosaic.Lib.StableHlo.Run
import Idealize.ShloMosaic.Lib.Pipeline.Value
import Idealize.ShloMosaic.Lib.KernelVsHost
import Idealize.ShloMosaic.PureOps.Ideal.Laws
import Mathlib.Algebra.BigOperators.Fin
import Mathlib.Algebra.BigOperators.Group.Finset.Basic

noncomputable section

namespace Cert.KernelIdeal.HostK

open Cert.KernelIdeal Cert.KernelIdeal.Gen Idealize.ShloMosaic Idealize.ShloMosaic.ValueIdx Idealize.ShloMosaic.TcCoe Idealize.SL.Sem Cert.Hand

/-- The mean projection matrix padded to 128 columns: zero from column 32 on. -/
def padProj (Z : Spec.ZIdx → EReal) (k : Fin 1024) (j : Fin 128) : EReal :=
  if h : j.val < 32 then Spec.proj Z k ⟨j.val, h⟩ else 0

/-- Row r of x projected onto padded column j. -/
def featPad (x : Spec.XIdx → EReal) (Z : Spec.ZIdx → EReal) (r : Fin 4096) (j : Fin 128) : EReal :=
  ∑ k : Fin 1024, x (ix2 r k) * padProj Z k j

/-- The sum of the 24 projections divided by 24, as the host operations compute it. -/
private def meanProj (Zc : (⟨S24x1024x32, .f32⟩ : BufTy).Contents (Elt Ideal)) :
    (⟨S1024x32, .f32⟩ : BufTy).Contents (Elt Ideal) :=
  Host.divf
    (Host.reduceAdd Zc (constant (F := Ideal) S_ .f32 0x00000000#32) reducesTo_S24x1024x32_S1024x32_d0 h_S_)
    (broadcastInDim S1024x32 ![] bcast_S_S1024x32 (constant (F := Ideal) S_ .f32 0x41C00000#32))

/-- Entry (k, j) of the mean is the specification's. -/
private theorem meanProj_apply (Zc : (⟨S24x1024x32, .f32⟩ : BufTy).Contents (Elt Ideal)) (k : Fin 1024) (j : Fin 32) :
    meanProj Zc (ix2 k j) = Spec.proj Zc k j := by
  unfold meanProj Spec.proj Spec.zeroE Spec.c24E
  show FloatOps.hostDivf _ _ = _
  rw [Ideal.hostDivf_def]
  refine congrArg₂ Ideal.div ?_ (broadcastInDim_apply _ bcast_S_S1024x32 _ (ix2 k j) (fun a => a.elim0) (fun a => a.elim0))
  simp only [Host.reduceAdd, Ideal.hostReduceAdd_def]
  rw [Ideal.hostReduceAdd_single reducesTo_S24x1024x32_S1024x32_d0 (by decide)]
  refine congrArg₂ (· + ·) rfl (Finset.sum_congr rfl fun p _ => ?_)
  exact congrArg Zc (funext fun a => Fin.ext (by match a with | ⟨0, _⟩ => rfl | ⟨1, _⟩ => rfl | ⟨2, _⟩ => rfl))

/-- The mean padded with 96 columns of the converted integer zero. -/
private def hostProj (Zc : (⟨S24x1024x32, .f32⟩ : BufTy).Contents (Elt Ideal)) :
    (⟨S1024x128, .f32⟩ : BufTy).Contents (Elt Ideal) :=
  pad S1024x128 ![0, 0] ![0, 96] ![0, 0] (meanProj Zc) (sitofp (F := Ideal) .f32 (constantI S_ 32 0#32))
    pads_S1024x32_S1024x128_000_0960 h_S_

/-- The integer zero converted to a float is zero. -/
private theorem padValue_eq (i : S_.Idx) : (sitofp (F := Ideal) .f32 (constantI S_ 32 0#32)) i = (0 : EReal) := by
  show (((0#32 : BitVec 32).toInt : ℝ) : EReal) = 0
  rw [show (0#32 : BitVec 32).toInt = 0 by decide, Int.cast_zero, EReal.coe_zero]

/-- Entry (k, j) of the padded mean. -/
private theorem hostProj_apply (Zc : (⟨S24x1024x32, .f32⟩ : BufTy).Contents (Elt Ideal)) (k : Fin 1024) (j : Fin 128) :
    hostProj Zc (ix2 k j) = padProj Zc k j := by
  unfold hostProj padProj
  by_cases h : j.val < 32
  · rw [dif_pos h, ← meanProj_apply]
    exact pad_apply_of_inside _ _ _ _ _ pads_S1024x32_S1024x128_000_0960 h_S_ (ix2 k j) (ix2 k ⟨j.val, h⟩)
      (fun a => by match a with
        | ⟨0, _⟩ => show k.val = 0 + k.val * (0 + 1); omega
        | ⟨1, _⟩ => show j.val = 0 + j.val * (0 + 1); omega)
  · rw [dif_neg h, ← padValue_eq (Shape.Idx.first h_S_)]
    exact pad_apply_of_not_inside _ _ _ _ _ pads_S1024x32_S1024x128_000_0960 h_S_ (ix2 k j) (1 : Fin 2)
      (fun hh => h (by
        have h3 : (j.val - 0) / (0 + 1) < 32 := hh.2.2
        omega))

/-- The dimension numbers of the two products are the plain ones. -/
private theorem dot_plain : PlainDot.IsPlain dot_S4096x1024_S1024x128_S4096x128_1_0_0_1_n_n :=
  ⟨rfl, rfl, rfl, rfl, rfl, rfl⟩

/-- A product of a 4096-by-1024 array with the padded mean, entry (r, j). -/
private theorem dot_hostProj_apply (xc : (⟨S4096x1024, .f32⟩ : BufTy).Contents (Elt Ideal))
    (Zc : (⟨S24x1024x32, .f32⟩ : BufTy).Contents (Elt Ideal)) (r : Fin 4096) (j : Fin 128) :
    Host.dotGeneral (F := Ideal) (φ₁ := .f32) (φ₂ := .f32) dot_S4096x1024_S1024x128_S4096x128_1_0_0_1_n_n none
        xc (hostProj Zc) (ix2 r j) = featPad xc Zc r j := by
  simp only [Host.dotGeneral]
  rw [dot_plain.dotGeneral_apply]
  unfold featPad
  exact Finset.sum_congr rfl fun k _ => by rw [hostProj_apply]

variable (m : (ℓ : Loc nD τ sig) → Buf (Elt Ideal) ℓ)

/-- The first operand of the pallas_call, entry (r, j). -/
theorem V_main_v4_apply (c : Dev nD) (r : Fin 4096) (j : Fin 128) :
    (V m c main_v4 : S4096x128.Idx → EReal) (ix2 r j)
      = featPad (m ((c : Thread nD τ).loc main_arg0)) (m ((c : Thread nD τ).loc main_arg3)) r j := by
  have e : (V m c main_v4 : S4096x128.Idx → EReal)
      = Host.dotGeneral (F := Ideal) (φ₁ := .f32) (φ₂ := .f32) dot_S4096x1024_S1024x128_S4096x128_1_0_0_1_n_n none
          (m ((c : Thread nD τ).loc main_arg0)) (hostProj (m ((c : Thread nD τ).loc main_arg3))) := by
    dsimp only [Gen.V]
    simp only [Gen.hostOps0, Gen.hostOps0_1, Gen.hostOps0_2, List.flatten_cons, List.flatten_nil, List.append_nil,
      List.cons_append, List.nil_append]
    after_results
    rfl
  exact (congrFun e (ix2 r j)).trans (dot_hostProj_apply _ _ r j)

/-- The second operand of the pallas_call, entry (r, j). -/
theorem V_main_v5_apply (c : Dev nD) (r : Fin 4096) (j : Fin 128) :
    (V m c main_v5 : S4096x128.Idx → EReal) (ix2 r j)
      = featPad (m ((c : Thread nD τ).loc main_arg1)) (m ((c : Thread nD τ).loc main_arg3)) r j := by
  have e : (V m c main_v5 : S4096x128.Idx → EReal)
      = Host.dotGeneral (F := Ideal) (φ₁ := .f32) (φ₂ := .f32) dot_S4096x1024_S1024x128_S4096x128_1_0_0_1_n_n none
          (m ((c : Thread nD τ).loc main_arg1)) (hostProj (m ((c : Thread nD τ).loc main_arg3))) := by
    dsimp only [Gen.V]
    simp only [Gen.hostOps0, Gen.hostOps0_1, Gen.hostOps0_2, List.flatten_cons, List.flatten_nil, List.append_nil,
      List.cons_append, List.nil_append]
    after_results
    rfl
  exact (congrFun e (ix2 r j)).trans (dot_hostProj_apply _ _ r j)

/-- Below column 32 a padded projected row is the specification's projected row. -/
private theorem featPad_of_lt (x : Spec.XIdx → EReal) (Z : Spec.ZIdx → EReal) (r : Fin 4096) (j : Fin 128)
    (h : j.val < 32) : featPad x Z r j = Spec.feat x Z r ⟨j.val, h⟩ := by
  unfold featPad padProj Spec.feat
  simp only [dif_pos h]

/-- From column 32 on a padded projected row is zero: every term has the factor zero. -/
private theorem featPad_of_not_lt (x : Spec.XIdx → EReal) (Z : Spec.ZIdx → EReal) (r : Fin 4096) (j : Fin 128)
    (h : ¬ j.val < 32) : featPad x Z r j = 0 := by
  unfold featPad padProj
  simp only [dif_neg h, mul_zero, Finset.sum_const_zero]

/-- A sum over 128 columns whose terms vanish from column 32 on is the sum over the first 32. -/
private theorem sum_pad (g : Fin 128 → EReal) (hg : ∀ j : Fin 128, ¬ j.val < 32 → g j = 0) :
    ∑ j : Fin 128, g j = ∑ j : Fin 32, g ⟨j.val, Nat.lt_of_lt_of_le j.isLt (by decide)⟩ := by
  have hs := Fin.sum_univ_add (M := EReal) (a := 32) (b := 96) g
  have hz : ∑ i : Fin 96, g (Fin.natAdd 32 i) = 0 :=
    Finset.sum_eq_zero fun i _ => hg _ (by show ¬ 32 + i.val < 32; omega)
  rw [hz, add_zero] at hs
  exact hs

/-- The 128-term dot product of two padded projected rows is the 32-term score. -/
theorem score_pad (x y : Spec.XIdx → EReal) (Z : Spec.ZIdx → EReal) (r c : Fin 4096) :
    ∑ j : Fin 128, featPad x Z r j * featPad y Z c j = Spec.score x y Z r c := by
  unfold Spec.score
  rw [sum_pad _ fun j h => by rw [featPad_of_not_lt x Z r j h, zero_mul]]
  exact Finset.sum_congr rfl fun j _ => by rw [featPad_of_lt x Z r _ j.isLt, featPad_of_lt y Z c _ j.isLt]

end Cert.KernelIdeal.HostK

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.OnlineSoftmax.lean ====
/-
  Softmax-weighted sums computed block by block with a running maximum.

  A row of 4096 scores is cut into four blocks of 1024. The running maximum after block k is the maximum of the running
  maximum before it and the block's own maximum; the running denominator and numerator are rescaled by
  exp (old maximum - new maximum) and the block's exponentials (shifted by the new maximum), respectively their products
  with the block's values, are added. When all scores and values are real numbers the quotient numerator / denominator
  after the last block is the softmax-weighted sum of the values over the whole row: the shift of the exponent cancels
  between numerator and denominator, exp (a - b) * exp (b - c) = exp (a - c) carries the rescaling, and the sum over four
  blocks of 1024 is the sum over 4096.
-/
import Mathlib.Analysis.SpecialFunctions.Exp
import Idealize.ShloMosaic.PureOps.Ideal
import Idealize.ShloMosaic.PureOps.Ideal.Laws
import proofs.«406827_j53678501265448_3_alg».proof.Proof.LibBlockSum
import proofs.«406827_j53678501265448_3_alg».proof.Proof.Spec

noncomputable section

namespace Cert.Hand.OnlineSoftmax

open Idealize.ShloMosaic Idealize.ShloMosaic.ValueIdx

/-- Position c of block k is position k * 1024 + c of the row. -/
theorem blk_lt (k : Fin 4) (c : Fin 1024) : k.val * 1024 + c.val < 4096 := by
  have := k.isLt; have := c.isLt; omega

def blkIdx (k : Fin 4) (c : Fin 1024) : Fin 4096 := ⟨k.val * 1024 + c.val, blk_lt k c⟩

/-- A row of 4096 entries cut into blocks of 1024 (blocks past the fourth are zero; they are never used). -/
def blocksOf (f : Fin 4096 → EReal) : ℕ → Fin 1024 → EReal :=
  fun k c => if h : k < 4 then f (blkIdx ⟨k, h⟩ c) else 0

/-- The running maximum after block k, starting from minus infinity. -/
def runM (σ : ℕ → Fin 1024 → EReal) : ℕ → EReal
  | 0 => max ⊥ ((Finset.univ : Finset (Fin 1024)).fold max ⊥ (σ 0))
  | k + 1 => max (runM σ k) ((Finset.univ : Finset (Fin 1024)).fold max ⊥ (σ (k + 1)))

/-- The running denominator after block k, starting from zero. -/
def runL (σ : ℕ → Fin 1024 → EReal) : ℕ → EReal
  | 0 => Ideal.exp (⊥ - runM σ 0) * 0 + ∑ c : Fin 1024, Ideal.exp (σ 0 c - runM σ 0)
  | k + 1 => Ideal.exp (runM σ k - runM σ (k + 1)) * runL σ k + ∑ c : Fin 1024, Ideal.exp (σ (k + 1) c - runM σ (k + 1))

/-- The running numerator after block k, starting from zero. -/
def runA (σ w : ℕ → Fin 1024 → EReal) : ℕ → EReal
  | 0 => Ideal.exp (⊥ - runM σ 0) * 0 + ∑ c : Fin 1024, Ideal.exp (σ 0 c - runM σ 0) * w 0 c
  | k + 1 => Ideal.exp (runM σ k - runM σ (k + 1)) * runA σ w k
      + ∑ c : Fin 1024, Ideal.exp (σ (k + 1) c - runM σ (k + 1)) * w (k + 1) c

/-- The pattern of minus infinity denotes the bottom element. -/
theorem negInfE_eq : Spec.negInfE = ⊥ := by
  simp [Spec.negInfE, Ideal.ofBits, Ideal.ieee]

/-- The pattern of zero denotes zero. -/
theorem zeroE_eq : Spec.zeroE = 0 := Ideal.ofBits_zero_f32

/-! ### Sums and maxima of real numbers inside the extended reals -/

/-- A finite sum of real numbers, taken in the extended reals, is the real sum. -/
private theorem coe_sum {ι : Type*} (t : Finset ι) (g : ι → ℝ) :
    ∑ i ∈ t, ((g i : ℝ) : EReal) = ((∑ i ∈ t, g i : ℝ) : EReal) := by
  classical
  induction t using Finset.induction_on with
  | empty => simp
  | insert a t ha ih => rw [Finset.sum_insert ha, Finset.sum_insert ha, ih, EReal.coe_add]

/-- The maximum of two real numbers, taken in the extended reals, is the real maximum. -/
private theorem coe_max (a b : ℝ) : max (a : EReal) (b : EReal) = ((max a b : ℝ) : EReal) :=
  (EReal.coe_strictMono.monotone.map_max).symm

/-- The maximum, from minus infinity, of finitely many (at least one) real numbers is a real number. -/
private theorem fold_max_coe {ι : Type*} (g : ι → ℝ) {t : Finset ι} (ht : t.Nonempty) :
    ∃ m : ℝ, t.fold max ⊥ (fun i => (g i : EReal)) = (m : EReal) := by
  induction ht using Finset.Nonempty.cons_induction with
  | singleton a => exact ⟨g a, by rw [Finset.fold_singleton, max_bot_right]⟩
  | cons a s h hs ih =>
    obtain ⟨m, hm⟩ := ih
    exact ⟨max (g a) m, by rw [Finset.fold_cons, hm, coe_max]⟩

/-- One term of a numerator: the exponential of a difference of reals times a real. -/
private theorem term_coe (x m y : ℝ) :
    Ideal.exp ((x : EReal) - (m : EReal)) * (y : EReal) = ((Real.exp (x - m) * y : ℝ) : EReal) := by
  rw [← EReal.coe_sub, Ideal.exp_coe, ← EReal.coe_mul]

/-- A quotient of reals with positive denominator. -/
private theorem div_coe_pos (a l : ℝ) (hl : 0 < l) : Ideal.div (a : EReal) (l : EReal) = ((a / l : ℝ) : EReal) := by
  rw [Ideal.div_coe hl.ne', ← EReal.coe_mul, mul_one_div]

/-! ### The running quantities in closed form -/

/-- The running denominator is the running numerator with all values one. -/
private theorem runL_eq_runA (σ : ℕ → Fin 1024 → EReal) : ∀ k, runL σ k = runA σ (fun _ _ => 1) k := by
  intro k
  induction k with
  | zero => simp only [runL, runA, mul_one]
  | succ k ih => rw [runL, runA, ih]; simp only [mul_one]

/-- With real scores every running maximum is a real number. -/
private theorem runM_real (σ : ℕ → Fin 1024 → EReal) (s : ℕ → Fin 1024 → ℝ) (hσ : ∀ k c, σ k c = (s k c : EReal)) :
    ∀ k, ∃ μ : ℝ, runM σ k = (μ : EReal) := by
  have hb : ∀ k, ∃ m : ℝ, (Finset.univ : Finset (Fin 1024)).fold max ⊥ (σ k) = (m : EReal) := by
    intro k
    have e : σ k = fun c => (s k c : EReal) := funext (hσ k)
    rw [e]
    exact fold_max_coe (s k) Finset.univ_nonempty
  intro k
  induction k with
  | zero =>
    obtain ⟨m, hm⟩ := hb 0
    exact ⟨m, by rw [runM, hm, max_bot_left]⟩
  | succ k ih =>
    obtain ⟨μ, hμ⟩ := ih
    obtain ⟨m, hm⟩ := hb (k + 1)
    exact ⟨max μ m, by rw [runM, hμ, hm, coe_max]⟩

/-- The sum, over the blocks 0 … k, of exp (score - m) times the value. -/
private def sumEW (s u : ℕ → Fin 1024 → ℝ) (k : ℕ) (m : ℝ) : ℝ :=
  ∑ j ∈ Finset.range (k + 1), ∑ c : Fin 1024, Real.exp (s j c - m) * u j c

/-- exp (a - b) * exp (x - a) = exp (x - b). -/
private theorem rescale (a b x y : ℝ) : Real.exp (a - b) * (Real.exp (x - a) * y) = Real.exp (x - b) * y := by
  have e : a - b + (x - a) = x - b := by ring
  rw [← mul_assoc, ← Real.exp_add, e]

/-- Changing the shift from a to b multiplies the sum by exp (a - b). -/
private theorem sumEW_rescale (s u : ℕ → Fin 1024 → ℝ) (k : ℕ) (a b : ℝ) :
    Real.exp (a - b) * sumEW s u k a = sumEW s u k b := by
  unfold sumEW
  rw [Finset.mul_sum]
  refine Finset.sum_congr rfl fun j _ => ?_
  rw [Finset.mul_sum]
  exact Finset.sum_congr rfl fun c _ => rescale a b _ _

/-- With all values one the sum is positive. -/
private theorem sumEW_one_pos (s : ℕ → Fin 1024 → ℝ) (k : ℕ) (m : ℝ) : 0 < sumEW s (fun _ _ => 1) k m := by
  unfold sumEW
  exact Finset.sum_pos (fun j _ => Finset.sum_pos (fun c _ => by positivity) Finset.univ_nonempty)
    Finset.nonempty_range_add_one

/-- One block's contribution to the numerator, as a real number. -/
private theorem block_coe (σ w : ℕ → Fin 1024 → EReal) (s u : ℕ → Fin 1024 → ℝ)
    (hσ : ∀ k c, σ k c = (s k c : EReal)) (hw : ∀ k c, w k c = (u k c : EReal)) (j : ℕ) (m : ℝ) :
    ∑ c : Fin 1024, Ideal.exp (σ j c - (m : EReal)) * w j c
      = ((∑ c : Fin 1024, Real.exp (s j c - m) * u j c : ℝ) : EReal) := by
  rw [← coe_sum]
  exact Finset.sum_congr rfl fun c _ => by rw [hσ, hw, term_coe]

/-- The running numerator after block k is the sum over the blocks so far, shifted by the running maximum. -/
private theorem runA_closed (σ w : ℕ → Fin 1024 → EReal) (s u : ℕ → Fin 1024 → ℝ)
    (hσ : ∀ k c, σ k c = (s k c : EReal)) (hw : ∀ k c, w k c = (u k c : EReal))
    (μ : ℕ → ℝ) (hμ : ∀ k, runM σ k = (μ k : EReal)) :
    ∀ k, runA σ w k = ((sumEW s u k (μ k) : ℝ) : EReal) := by
  intro k
  induction k with
  | zero =>
    rw [runA, hμ 0, EReal.bot_sub, Ideal.exp_bot, zero_mul, zero_add, block_coe σ w s u hσ hw]
    unfold sumEW
    rw [Finset.sum_range_one]
  | succ k ih =>
    rw [runA, hμ k, hμ (k + 1), ih, block_coe σ w s u hσ hw, ← EReal.coe_sub, Ideal.exp_coe, ← EReal.coe_mul,
      ← EReal.coe_add, sumEW_rescale]
    unfold sumEW
    rw [Finset.sum_range_succ _ (k + 1)]

/-! ### The four blocks are the whole row -/

/-- A row of 4096 reals cut into blocks of 1024 (zero past the fourth block). -/
private def blocksR (s : Fin 4096 → ℝ) : ℕ → Fin 1024 → ℝ :=
  fun k c => if h : k < 4 then s (blkIdx ⟨k, h⟩ c) else 0

private theorem blocksOf_coe (f : Fin 4096 → EReal) (s : Fin 4096 → ℝ) (hf : ∀ i, f i = (s i : EReal))
    (k : ℕ) (c : Fin 1024) : blocksOf f k c = (blocksR s k c : EReal) := by
  simp only [blocksOf, blocksR]
  split_ifs with h
  · exact hf _
  · exact EReal.coe_zero.symm

/-- The sum over the four blocks is the sum over the row. -/
private theorem sumEW_blocks (s u : Fin 4096 → ℝ) (u' : ℕ → Fin 1024 → ℝ)
    (hu : ∀ (j : Fin 4) (c : Fin 1024), u' j.val c = u (blkIdx j c)) (m : ℝ) :
    sumEW (blocksR s) u' 3 m = ∑ i : Fin 4096, Real.exp (s i - m) * u i := by
  unfold sumEW
  rw [← BlockSum.sum_blocks_cast 4 1024 4096 rfl (fun i => Real.exp (s i - m) * u i) blk_lt,
    BlockSum.sum_range_eq_sum_fin]
  refine Finset.sum_congr rfl fun j _ => Finset.sum_congr rfl fun c _ => ?_
  rw [hu j c]
  simp only [blocksR, dif_pos j.isLt]
  rfl

/-- The softmax-weighted sum does not depend on the shift of the exponent. -/
private theorem softmax_shift (s u : Fin 4096 → ℝ) (m m' : ℝ) :
    (∑ i, Real.exp (s i - m) * u i) / (∑ i, Real.exp (s i - m) * 1)
      = ∑ i, Real.exp (s i - m') / (∑ i', Real.exp (s i' - m')) * u i := by
  have key : ∀ i, Real.exp (s i - m) = Real.exp (m' - m) * Real.exp (s i - m') := by
    intro i
    have e : m' - m + (s i - m') = s i - m := by ring
    rw [← Real.exp_add, e]
  have hN : ∑ i, Real.exp (s i - m) * u i = Real.exp (m' - m) * ∑ i, Real.exp (s i - m') * u i := by
    rw [Finset.mul_sum]
    exact Finset.sum_congr rfl fun i _ => by rw [key, mul_assoc]
  have hD : ∑ i, Real.exp (s i - m) * 1 = Real.exp (m' - m) * ∑ i, Real.exp (s i - m') := by
    rw [Finset.mul_sum]
    exact Finset.sum_congr rfl fun i _ => by rw [key, mul_one]
  rw [hN, hD, mul_div_mul_left _ _ (Real.exp_pos _).ne', Finset.sum_div]
  exact Finset.sum_congr rfl fun i _ => by ring

/-! ### The reference side -/

/-- With real scores the row maximum is a real number. -/
private theorem rowMax_real (x y : Spec.XIdx → EReal) (Z : Spec.ZIdx → EReal) (r : Fin 4096) (s : Fin 4096 → ℝ)
    (hs : ∀ c, Spec.score x y Z r c = (s c : EReal)) : ∃ m' : ℝ, Spec.rowMax x y Z r = (m' : EReal) := by
  obtain ⟨m, hm⟩ := fold_max_coe s (Finset.univ_nonempty : (Finset.univ : Finset (Fin 4096)).Nonempty)
  refine ⟨m, ?_⟩
  have e : (fun c => Spec.score x y Z r c) = fun c => (s c : EReal) := funext hs
  rw [Spec.rowMax, negInfE_eq, e, hm, max_bot_left]

/-- The softmax-weighted sum of the reference, as a real number. -/
private theorem attnOut_real (x y v : Spec.XIdx → EReal) (Z : Spec.ZIdx → EReal) (r : Fin 4096) (d : Fin 1024)
    (s u : Fin 4096 → ℝ) (hs : ∀ c, Spec.score x y Z r c = (s c : EReal)) (hu : ∀ c, v (ix2 c d) = (u c : EReal))
    (m' : ℝ) (hm : Spec.rowMax x y Z r = (m' : EReal)) :
    Spec.attnOut x y v Z r d
      = ((∑ c, Real.exp (s c - m') / (∑ c', Real.exp (s c' - m')) * u c : ℝ) : EReal) := by
  have hexpo : ∀ c, Spec.expo x y Z r c = ((Real.exp (s c - m') : ℝ) : EReal) := by
    intro c
    rw [Spec.expo, hs, hm, ← EReal.coe_sub, Ideal.exp_coe]
  have hden : Spec.denom x y Z r = ((∑ c', Real.exp (s c' - m') : ℝ) : EReal) := by
    rw [Spec.denom, zeroE_eq, zero_add, ← coe_sum]
    exact Finset.sum_congr rfl fun c _ => hexpo c
  have hpos : 0 < ∑ c', Real.exp (s c' - m') :=
    Finset.sum_pos (fun c _ => Real.exp_pos _) Finset.univ_nonempty
  rw [Spec.attnOut, ← coe_sum]
  refine Finset.sum_congr rfl fun c _ => ?_
  rw [hexpo, hden, hu, div_coe_pos _ _ hpos, ← EReal.coe_mul]

/-- With real scores and real values, the block-by-block quotient after the fourth block is the softmax-weighted sum
    over the whole row. -/
theorem attnOut_eq_online (x y v : Spec.XIdx → EReal) (Z : Spec.ZIdx → EReal) (r : Fin 4096) (d : Fin 1024)
    (hs : ∀ c : Fin 4096, ∃ s : ℝ, Spec.score x y Z r c = (s : EReal))
    (hv : ∀ c : Fin 4096, ∃ u : ℝ, v (ix2 c d) = (u : EReal)) :
    Ideal.div (runA (blocksOf (Spec.score x y Z r)) (blocksOf (fun c => v (ix2 c d))) 3)
        (runL (blocksOf (Spec.score x y Z r)) 3)
      = Spec.attnOut x y v Z r d := by
  choose s hs using hs
  choose u hu using hv
  obtain ⟨m', hm'⟩ := rowMax_real x y Z r s hs
  rw [attnOut_real x y v Z r d s u hs hu m' hm']
  have hσ : ∀ k c, blocksOf (Spec.score x y Z r) k c = (blocksR s k c : EReal) := blocksOf_coe _ s hs
  have hw : ∀ k c, blocksOf (fun c => v (ix2 c d)) k c = (blocksR u k c : EReal) := blocksOf_coe _ u hu
  choose μ hμ using runM_real _ (blocksR s) hσ
  rw [runL_eq_runA, runA_closed _ _ (blocksR s) (blocksR u) hσ hw μ hμ 3,
    runA_closed _ (fun _ _ => 1) (blocksR s) (fun _ _ => 1) hσ (fun _ _ => EReal.coe_one.symm) μ hμ 3,
    div_coe_pos _ _ (sumEW_one_pos _ _ _),
    sumEW_blocks s u (blocksR u) (fun j c => by simp only [blocksR, dif_pos j.isLt]) (μ 3),
    sumEW_blocks s (fun _ => 1) (fun _ _ => 1) (fun _ _ => rfl) (μ 3), softmax_shift s u (μ 3) m']

end Cert.Hand.OnlineSoftmax

end
-- ==== Proof.SpecReal.lean ====
/-
  When every entry of x, y and Z is a real number, so is every score: the scores are finite sums of products of real
  numbers, and the division by the literal 24 is a division of real numbers.
-/
import Mathlib.Analysis.SpecialFunctions.Exp
import Idealize.ShloMosaic.PureOps.Ideal
import Idealize.ShloMosaic.PureOps.Ideal.Laws
import proofs.«406827_j53678501265448_3_alg».proof.Proof.Spec

noncomputable section

namespace Cert.Hand.SpecReal

open Idealize.ShloMosaic Idealize.ShloMosaic.ValueIdx

/-- The printed pattern 0x41C00000 denotes twenty-four. -/
theorem c24E_eq : Spec.c24E = ((24 : ℝ) : EReal) := by
  unfold Spec.c24E
  simp [Ideal.ofBits, Ideal.ieee, -EReal.coe_mul]; norm_num

/-- A finite sum of real numbers, read in the extended reals, is the real sum. -/
private theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- Real arguments give real scores. -/
theorem score_real (x y : Spec.XIdx → EReal) (Z : Spec.ZIdx → EReal)
    (hx : ∀ i, ∃ a : ℝ, x i = (a : EReal)) (hy : ∀ i, ∃ a : ℝ, y i = (a : EReal)) (hZ : ∀ i, ∃ a : ℝ, Z i = (a : EReal))
    (r c : Fin 4096) : ∃ s : ℝ, Spec.score x y Z r c = (s : EReal) := by
  choose x' hx' using hx
  choose y' hy' using hy
  choose Z' hZ' using hZ
  -- the mean projection matrix is real: (0 + the sum of the 24 real entries) times 1/24
  have hproj : ∀ k j, Spec.proj Z k j
      = (((0 + ∑ p : Fin 24, Z' (ix3 p k j)) * (1 / 24) : ℝ) : EReal) := by
    intro k j
    unfold Spec.proj
    rw [c24E_eq, Ideal.div_coe (by norm_num : (24 : ℝ) ≠ 0)]
    unfold Spec.zeroE
    rw [Ideal.ofBits_zero_f32]
    simp only [hZ']
    rw [coe_sum, ← EReal.coe_zero, ← EReal.coe_add, ← EReal.coe_mul]
  -- the features of a real array are real: finite sums of products of reals
  have hfeat : ∀ (w : Spec.XIdx → EReal) (w' : Spec.XIdx → ℝ), (∀ i, w i = (w' i : EReal)) → ∀ (r : Fin 4096) (j : Fin 32),
      Spec.feat w Z r j
        = ((∑ k : Fin 1024, w' (ix2 r k) * ((0 + ∑ p : Fin 24, Z' (ix3 p k j)) * (1 / 24)) : ℝ) : EReal) := by
    intro w w' hw r j
    unfold Spec.feat
    simp only [hw, hproj, ← EReal.coe_mul]
    rw [coe_sum]
  refine ⟨∑ j : Fin 32,
      (∑ k : Fin 1024, x' (ix2 r k) * ((0 + ∑ p : Fin 24, Z' (ix3 p k j)) * (1 / 24)))
        * (∑ k : Fin 1024, y' (ix2 c k) * ((0 + ∑ p : Fin 24, Z' (ix3 p k j)) * (1 / 24))), ?_⟩
  unfold Spec.score
  simp only [hfeat x x' hx', hfeat y y' hy', ← EReal.coe_mul]
  rw [coe_sum]

end Cert.Hand.SpecReal

end
-- ==== Proof.KValue.lean ====
/-
  The value of the kernel program over the extended reals. Each grid point (query tile qi, key block kj) computes the
  block of scores of the tile's 1024 rows against the key block's 1024 rows and writes it back: the first result is the
  score matrix. Over the four key blocks of a query tile the scratch rows carry the running maximum, denominator and
  numerator of the softmax-weighted sum of the rows of v; by induction over the points they are the block-by-block
  recurrences of the online softmax, and the block written back at the last key block is their quotient, which for
  real scores is softmax(scores) times v.
-/
import proofs.«406827_j53678501265448_3_alg».proof.Proof.State
import proofs.«406827_j53678501265448_3_alg».proof.Proof.HostK
import proofs.«406827_j53678501265448_3_alg».proof.Proof.OnlineSoftmax
import proofs.«406827_j53678501265448_3_alg».proof.Proof.SpecReal

set_option maxRecDepth 16384

noncomputable section

namespace Cert.KernelIdeal.KValue

open Cert.KernelIdeal Cert.KernelIdeal.Gen Cert.KernelIdeal.Pieces Cert.KernelIdeal.StepAt Cert.KernelIdeal.State Cert.KernelIdeal.HostK Idealize.ShloMosaic Idealize.ShloMosaic.ValueIdx Idealize.ShloMosaic.TcCoe Idealize.SL.Sem Cert.Hand Cert.Hand.OnlineSoftmax

variable (m : (ℓ : Loc nD τ sig) → Buf (Elt Ideal) ℓ) (c : Dev nD)

/-- The four argument arrays. -/
abbrev ax : Spec.XIdx → EReal := m ((c : Thread nD τ).loc main_arg0)
abbrev ay : Spec.XIdx → EReal := m ((c : Thread nD τ).loc main_arg1)
abbrev av : Spec.XIdx → EReal := m ((c : Thread nD τ).loc main_arg2)
abbrev aZ : Spec.ZIdx → EReal := m ((c : Thread nD τ).loc main_arg3)

theorem N16 : cfg0.N = 16 := N_0

theorem row_lt (t : Fin cfg0.N) (p : Fin 1024) : (t.val / 4) * 1024 + p.val < 4096 := by
  have := lt_of_lt_of_eq t.isLt N16; have := p.isLt; omega
theorem col_lt (t : Fin cfg0.N) (p : Fin 1024) : (t.val % 4) * 1024 + p.val < 4096 := by
  have := p.isLt; omega

/-- The row of the whole arrays that row p of the query tile of point t is. -/
def qrow (t : Fin cfg0.N) (p : Fin 1024) : Fin 4096 := ⟨(t.val / 4) * 1024 + p.val, row_lt t p⟩
/-- The row of the whole arrays that row p of the key block of point t is. -/
def krow (t : Fin cfg0.N) (p : Fin 1024) : Fin 4096 := ⟨(t.val % 4) * 1024 + p.val, col_lt t p⟩

theorem idx_facts : ∀ t : Fin cfg0.N, win0_0.index t 0 = t.val / 4 ∧ win0_0.index t 1 = 0
    ∧ win0_1.index t 0 = t.val % 4 ∧ win0_1.index t 1 = 0 ∧ win0_2.index t 0 = 0 ∧ win0_2.index t 1 = 0
    ∧ win0_3.index t 0 = t.val / 4 ∧ win0_3.index t 1 = t.val % 4 ∧ win0_4.index t 0 = t.val / 4 ∧ win0_4.index t 1 = 0 :=
  (by decide +kernel : ∀ t : Fin grid0.N, win0_0.index t 0 = t.val / 4 ∧ win0_0.index t 1 = 0
    ∧ win0_1.index t 0 = t.val % 4 ∧ win0_1.index t 1 = 0 ∧ win0_2.index t 0 = 0 ∧ win0_2.index t 1 = 0
    ∧ win0_3.index t 0 = t.val / 4 ∧ win0_3.index t 1 = t.val % 4 ∧ win0_4.index t 0 = t.val / 4 ∧ win0_4.index t 1 = 0)

theorem qblk_at (t : Fin cfg0.N) (p : Fin 1024) (j : Fin 128) :
    qblk m c t (ix2 p j) = (V m c main_v4 : S4096x128.Idx → EReal) (ix2 (qrow t p) j) := by
  show (V m c main_v4 : S4096x128.Idx → EReal) (((cfg0.win 0).blk t).view.emb (ix2 p j)) = _
  refine congrArg (V m c main_v4 : S4096x128.Idx → EReal) (funext fun a => Fin.ext ?_)
  match a with
  | ⟨0, _⟩ =>
    show win0_0.index t 0 * 1024 + 1 * p.val = (t.val / 4) * 1024 + p.val
    rw [(idx_facts t).1]; omega
  | ⟨1, _⟩ =>
    show win0_0.index t 1 * 128 + 1 * j.val = j.val
    rw [(idx_facts t).2.1]; omega

theorem kblk_at (t : Fin cfg0.N) (p : Fin 1024) (j : Fin 128) :
    kblk m c t (ix2 p j) = (V m c main_v5 : S4096x128.Idx → EReal) (ix2 (krow t p) j) := by
  show (V m c main_v5 : S4096x128.Idx → EReal) (((cfg0.win 1).blk t).view.emb (ix2 p j)) = _
  refine congrArg (V m c main_v5 : S4096x128.Idx → EReal) (funext fun a => Fin.ext ?_)
  match a with
  | ⟨0, _⟩ =>
    show win0_1.index t 0 * 1024 + 1 * p.val = (t.val % 4) * 1024 + p.val
    rw [(idx_facts t).2.2.1]; omega
  | ⟨1, _⟩ =>
    show win0_1.index t 1 * 128 + 1 * j.val = j.val
    rw [(idx_facts t).2.2.2.1]; omega

theorem vall_at (t : Fin cfg0.N) (a : Fin 4096) (d : Fin 1024) :
    vall m c t (ix2 a d) = av m c (ix2 a d) := by
  show (V m c main_arg2 : S4096x1024.Idx → EReal) (((cfg0.win 2).blk t).view.emb (ix2 a d)) = _
  rw [V_main_arg2]
  refine congrArg (av m c) (funext fun b => Fin.ext ?_)
  match b with
  | ⟨0, _⟩ =>
    show win0_2.index t 0 * 4096 + 1 * a.val = a.val
    rw [(idx_facts t).2.2.2.2.1]; omega
  | ⟨1, _⟩ =>
    show win0_2.index t 1 * 1024 + 1 * d.val = d.val
    rw [(idx_facts t).2.2.2.2.2.1]; omega

/-- The score block of point t is the specification's scores of the tile's rows against the key block's rows. -/
theorem score_blk (t : Fin cfg0.N) (p cc : Fin 1024) :
    k0_pay7 (F := Ideal) (qblk m c t) (kblk m c t) (ix2 p cc) = Spec.score (ax m c) (ay m c) (aZ m c) (qrow t p) (krow t cc) := by
  rw [score_at]
  rw [← score_pad]
  refine Finset.sum_congr rfl fun j _ => ?_
  rw [qblk_at, kblk_at, V_main_v4_apply, V_main_v5_apply]

theorem negL_eq : negInfL = ⊥ := negInfE_eq
theorem zeroL_eq : zeroL = 0 := zeroE_eq

/-- Block (t mod 4) of a row cut into blocks of 1024 is the key block's rows. -/
theorem blocksOf_at (f : Fin 4096 → EReal) (t : Fin cfg0.N) (k : ℕ) (hk : t.val % 4 = k) (cc : Fin 1024) :
    blocksOf f k cc = f (krow t cc) := by
  subst hk
  unfold blocksOf
  rw [dif_pos (Nat.mod_lt _ (by norm_num))]
  rfl

/-- The scores of one row of the query tile, and one column of v, as rows of 4096. -/
abbrev srow (t : Fin cfg0.N) (p : Fin 1024) : Fin 4096 → EReal := Spec.score (ax m c) (ay m c) (aZ m c) (qrow t p)
abbrev vcol (d : Fin 1024) : Fin 4096 → EReal := fun cc => av m c (ix2 cc d)

theorem qrow_pred (t : Fin cfg0.N) (h0 : ¬ t.val % 4 = 0) (p : Fin 1024) : qrow ⟨t.val - 1, pred_lt t⟩ p = qrow t p := by
  unfold qrow
  refine Fin.ext ?_
  show (t.val - 1) / 4 * 1024 + p.val = t.val / 4 * 1024 + p.val
  have : (t.val - 1) / 4 = t.val / 4 := by omega
  rw [this]

theorem srow_pred (t : Fin cfg0.N) (h0 : ¬ t.val % 4 = 0) (p : Fin 1024) : srow m c ⟨t.val - 1, pred_lt t⟩ p = srow m c t p := by
  show Spec.score (ax m c) (ay m c) (aZ m c) (qrow ⟨t.val - 1, pred_lt t⟩ p) = Spec.score (ax m c) (ay m c) (aZ m c) (qrow t p)
  rw [qrow_pred t h0 p]

/-- The per-row step equations with the block's scores and values named. -/
theorem Mstep (t : Fin cfg0.N) (p : Fin 1024) (k : ℕ) (hk : t.val % 4 = k) (s0 : S1024x1.Idx → EReal) :
    stepM (F := Ideal) (qblk m c t) (kblk m c t) s0 (ix2 p z1)
      = max (s0 (ix2 p z1)) ((Finset.univ : Finset (Fin 1024)).fold max ⊥ (blocksOf (srow m c t p) k)) := by
  rw [stepM_at, negL_eq]
  refine congrArg (max (s0 (ix2 p z1))) (congrArg (fun f => (Finset.univ : Finset (Fin 1024)).fold max ⊥ f) (funext fun cc => ?_))
  rw [score_blk, blocksOf_at _ t k hk]

theorem Lstep (t : Fin cfg0.N) (p : Fin 1024) (k : ℕ) (hk : t.val % 4 = k) (s0 s1 : S1024x1.Idx → EReal) :
    stepL (F := Ideal) (qblk m c t) (kblk m c t) s0 s1 (ix2 p z1)
      = Ideal.exp (s0 (ix2 p z1) - stepM (F := Ideal) (qblk m c t) (kblk m c t) s0 (ix2 p z1)) * s1 (ix2 p z1)
        + ∑ cc : Fin 1024, Ideal.exp (blocksOf (srow m c t p) k cc - stepM (F := Ideal) (qblk m c t) (kblk m c t) s0 (ix2 p z1)) := by
  rw [stepL_at]
  refine congrArg₂ (· + ·) rfl (Finset.sum_congr rfl fun cc _ => ?_)
  rw [score_blk, blocksOf_at _ t k hk]

theorem Astep (t : Fin cfg0.N) (p d : Fin 1024) (k : ℕ) (hk : t.val % 4 = k) (s0 : S1024x1.Idx → EReal) (s2 : S1024x1024.Idx → EReal) :
    stepA (F := Ideal) (grid0.coords t) (qblk m c t) (kblk m c t) (vall m c t) s0 s2 (ix2 p d)
      = Ideal.exp (s0 (ix2 p z1) - stepM (F := Ideal) (qblk m c t) (kblk m c t) s0 (ix2 p z1)) * s2 (ix2 p d)
        + ∑ cc : Fin 1024, Ideal.exp (blocksOf (srow m c t p) k cc - stepM (F := Ideal) (qblk m c t) (kblk m c t) s0 (ix2 p z1))
            * blocksOf (vcol m c d) k cc := by
  rw [stepA_at]
  refine congrArg₂ (· + ·) rfl (Finset.sum_congr rfl fun cc _ => ?_)
  rw [score_blk, blocksOf_at _ t k hk, blocksOf_at _ t k hk, vLd_at t _ cc d (col_lt t cc), vall_at]
  rfl

/-- After the point of key block k of a query tile, the scratch rows hold the block-by-block running maximum,
    denominator and numerator of the tile's rows. -/
theorem state_eq : ∀ (n : ℕ) (t : Fin cfg0.N), t.val = n → ∀ p : Fin 1024,
    Mst m c t (ix2 p z1) = runM (blocksOf (srow m c t p)) (t.val % 4)
    ∧ Lst m c t (ix2 p z1) = runL (blocksOf (srow m c t p)) (t.val % 4)
    ∧ ∀ d : Fin 1024, Ast m c t (ix2 p d) = runA (blocksOf (srow m c t p)) (blocksOf (vcol m c d)) (t.val % 4) := by
  intro n
  induction n with
  | zero =>
    intro t ht p
    have h0 : t.val % 4 = 0 := by omega
    have hM : Mst m c t (ix2 p z1) = runM (blocksOf (srow m c t p)) 0 := by
      rw [Mst_first m c t h0, Mstep m c t p 0 h0, m_init_at, negL_eq]; rfl
    refine ⟨by rw [h0]; exact hM, ?_, ?_⟩
    · rw [h0, Lst_first m c t h0, Lstep m c t p 0 h0, ← Mst_first m c t h0, hM, m_init_at, l_init_at, negL_eq, zeroL_eq]; rfl
    · intro d
      rw [h0, Ast_first m c t h0, Astep m c t p d 0 h0, ← Mst_first m c t h0, hM, m_init_at, a_init_at, negL_eq, zeroL_eq]; rfl
  | succ n ih =>
    intro t ht p
    by_cases h0 : t.val % 4 = 0
    · have hM : Mst m c t (ix2 p z1) = runM (blocksOf (srow m c t p)) 0 := by
        rw [Mst_first m c t h0, Mstep m c t p 0 h0, m_init_at, negL_eq]; rfl
      refine ⟨by rw [h0]; exact hM, ?_, ?_⟩
      · rw [h0, Lst_first m c t h0, Lstep m c t p 0 h0, ← Mst_first m c t h0, hM, m_init_at, l_init_at, negL_eq, zeroL_eq]; rfl
      · intro d
        rw [h0, Ast_first m c t h0, Astep m c t p d 0 h0, ← Mst_first m c t h0, hM, m_init_at, a_init_at, negL_eq, zeroL_eq]; rfl
    · obtain ⟨k, hk⟩ : ∃ k, t.val % 4 = k + 1 := ⟨t.val % 4 - 1, by omega⟩
      have hprev := ih ⟨t.val - 1, pred_lt t⟩ (by show t.val - 1 = n; omega) p
      have hk' : (⟨t.val - 1, pred_lt t⟩ : Fin cfg0.N).val % 4 = k := by show (t.val - 1) % 4 = k; omega
      rw [hk', srow_pred m c t h0 p] at hprev
      obtain ⟨iM, iL, iA⟩ := hprev
      have hM : Mst m c t (ix2 p z1) = runM (blocksOf (srow m c t p)) (k + 1) := by
        rw [Mst_next m c t h0, Mstep m c t p (k + 1) hk, iM]; rfl
      refine ⟨by rw [hk]; exact hM, ?_, ?_⟩
      · rw [hk, Lst_next m c t h0, Lstep m c t p (k + 1) hk, ← Mst_next m c t h0, hM, iM, iL]; rfl
      · intro d
        rw [hk, Ast_next m c t h0, Astep m c t p d (k + 1) hk, ← Mst_next m c t h0, hM, iM, iA d]; rfl

/-! ## The first result: every point writes back its block of scores -/

theorem attn_point (t : Fin cfg0.N) (j : S1024x1024.Idx) :
    k0_pay7 (F := Ideal) (qblk m c t) (kblk m c t) j
      = Spec.Gattn (ax m c) (ay m c) (aZ m c) (((cfg0.win 3).blk t).view.emb j) := by
  obtain ⟨p, cc, rfl⟩ : ∃ (p cc : Fin 1024), j = ix2 p cc := ⟨j 0, j 1, eq_ix2 j⟩
  rw [score_blk]
  unfold Spec.Gattn
  refine congrArg₂ (Spec.score (ax m c) (ay m c) (aZ m c)) (Fin.ext ?_) (Fin.ext ?_)
  · show (t.val / 4) * 1024 + p.val = win0_3.index t 0 * 1024 + 1 * p.val
    rw [(idx_facts t).2.2.2.2.2.2.1]; omega
  · show (t.val % 4) * 1024 + cc.val = win0_3.index t 1 * 1024 + 1 * cc.val
    rw [(idx_facts t).2.2.2.2.2.2.2.1]; omega

theorem flushed3_eq (t : Fin cfg0.N) :
    (dats m 0 c).flushed 3 t = ((cfg0.win 3).blk t).view.read (Elt Ideal) (Spec.Gattn (ax m c) (ay m c) (aZ m c)) := by
  rw [Value.flushed3, out3_eq]
  funext j
  exact attn_point m c t j

theorem mem_blk3 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v6_0).slice (win0_3.rect t)).set ↔ _
  rw [View.set_slice_whole, Rect.mem_set_unit]
  exact Iff.rfl

theorem cover3 (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  have hlt : (i 0).val / 1024 * 4 + (i 1).val / 1024 < cfg0.N := by rw [N16]; omega
  refine ⟨⟨(i 0).val / 1024 * 4 + (i 1).val / 1024, hlt⟩, flush0_3 _, ?_⟩
  rw [mem_blk3]
  have f0 := (idx_facts ⟨(i 0).val / 1024 * 4 + (i 1).val / 1024, hlt⟩).2.2.2.2.2.2.1
  have f1 := (idx_facts ⟨(i 0).val / 1024 * 4 + (i 1).val / 1024, hlt⟩).2.2.2.2.2.2.2.1
  intro a
  match a with
  | ⟨0, _⟩ =>
    show win0_3.index _ 0 * 1024 ≤ (i 0).val ∧ (i 0).val < win0_3.index _ 0 * 1024 + 1024
    rw [f0]; show ((i 0).val / 1024 * 4 + (i 1).val / 1024) / 4 * 1024 ≤ (i 0).val ∧ (i 0).val < ((i 0).val / 1024 * 4 + (i 1).val / 1024) / 4 * 1024 + 1024
    omega
  | ⟨1, _⟩ =>
    show win0_3.index _ 1 * 1024 ≤ (i 1).val ∧ (i 1).val < win0_3.index _ 1 * 1024 + 1024
    rw [f1]; show ((i 0).val / 1024 * 4 + (i 1).val / 1024) % 4 * 1024 ≤ (i 1).val ∧ (i 1).val < ((i 0).val / 1024 * 4 + (i 1).val / 1024) % 4 * 1024 + 1024
    omega

/-- After the run the first result array holds the scores. -/
theorem final3 : (dats m 0 c).arrAt 3 cfg0.N = Spec.Gattn (ax m c) (ay m c) (aZ m c) :=
  (dats m 0 c).arrAt_eq_of_cover 3 (Spec.Gattn (ax m c) (ay m c) (aZ m c)) (fun t _ => flushed3_eq m c t) cover3

/-! ## The second result: the last key block's point writes back numerator over denominator -/

section
variable (hx : ∀ i, ∃ a : ℝ, ax m c i = (a : EReal)) (hy : ∀ i, ∃ a : ℝ, ay m c i = (a : EReal))
  (hv : ∀ i, ∃ a : ℝ, av m c i = (a : EReal)) (hZ : ∀ i, ∃ a : ℝ, aZ m c i = (a : EReal))
include hx hy hv hZ

theorem out_point (t : Fin cfg0.N) (h1 : t.val % 4 = 3) (j : S1024x1024.Idx) :
    k0_pay3 (F := Ideal) (Ast m c t) (Lst m c t) j
      = Spec.Gout (ax m c) (ay m c) (av m c) (aZ m c) (((cfg0.win 4).blk t).view.emb j) := by
  obtain ⟨p, d, rfl⟩ : ∃ (p d : Fin 1024), j = ix2 p d := ⟨j 0, j 1, eq_ix2 j⟩
  rw [quot_at]
  obtain ⟨-, iL, iA⟩ := state_eq m c t.val t rfl p
  rw [iA d, iL, h1]
  rw [attnOut_eq_online (ax m c) (ay m c) (av m c) (aZ m c) (qrow t p) d
    (fun cc => SpecReal.score_real (ax m c) (ay m c) (aZ m c) hx hy hZ (qrow t p) cc) (fun cc => hv (ix2 cc d))]
  unfold Spec.Gout
  refine congrArg₂ (Spec.attnOut (ax m c) (ay m c) (av m c) (aZ m c)) (Fin.ext ?_) (Fin.ext ?_)
  · show (t.val / 4) * 1024 + p.val = win0_4.index t 0 * 1024 + 1 * p.val
    rw [(idx_facts t).2.2.2.2.2.2.2.2.1]; omega
  · show d.val = win0_4.index t 1 * 1024 + 1 * d.val
    rw [(idx_facts t).2.2.2.2.2.2.2.2.2]; omega

theorem flushed4_eq (t : Fin cfg0.N) (hf : (cfg0.win 4).flush t = true) :
    (dats m 0 c).flushed 4 t = ((cfg0.win 4).blk t).view.read (Elt Ideal) (Spec.Gout (ax m c) (ay m c) (av m c) (aZ m c)) := by
  have h1 : t.val % 4 = 3 := (flush0_4 t).mp hf
  rw [Value.flushed4, out4_eq m c t h1]
  funext j
  exact out_point m c hx hy hv hZ t h1 j

omit hx hy hv hZ in
theorem mem_blk4 (t : Fin cfg0.N) (i : S4096x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v6_1).slice (win0_4.rect t)).set ↔ _
  rw [View.set_slice_whole, Rect.mem_set_unit]
  exact Iff.rfl

omit hx hy hv hZ in
theorem cover4 (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  have hlt : (i 0).val / 1024 * 4 + 3 < cfg0.N := by rw [N16]; omega
  refine ⟨⟨(i 0).val / 1024 * 4 + 3, hlt⟩, (flush0_4 _).mpr (by show ((i 0).val / 1024 * 4 + 3) % 4 = 3; omega), ?_⟩
  rw [mem_blk4]
  have f0 := (idx_facts ⟨(i 0).val / 1024 * 4 + 3, hlt⟩).2.2.2.2.2.2.2.2.1
  have f1 := (idx_facts ⟨(i 0).val / 1024 * 4 + 3, hlt⟩).2.2.2.2.2.2.2.2.2
  intro a
  match a with
  | ⟨0, _⟩ =>
    show win0_4.index _ 0 * 1024 ≤ (i 0).val ∧ (i 0).val < win0_4.index _ 0 * 1024 + 1024
    rw [f0]; show ((i 0).val / 1024 * 4 + 3) / 4 * 1024 ≤ (i 0).val ∧ (i 0).val < ((i 0).val / 1024 * 4 + 3) / 4 * 1024 + 1024
    omega
  | ⟨1, _⟩ =>
    show win0_4.index _ 1 * 1024 ≤ (i 1).val ∧ (i 1).val < win0_4.index _ 1 * 1024 + 1024
    rw [f1]; omega

/-- After the run the second result array holds the softmax-weighted sums. -/
theorem final4 : (dats m 0 c).arrAt 4 cfg0.N = Spec.Gout (ax m c) (ay m c) (av m c) (aZ m c) :=
  (dats m 0 c).arrAt_eq_of_cover 4 (Spec.Gout (ax m c) (ay m c) (av m c) (aZ m c)) (fun t hf => flushed4_eq m c hx hy hv hZ t hf) cover4

end

/-! ## The run -/

/-- With real argument arrays, every execution of the kernel program ends with the two result arrays at the
    specification's arrays and the arguments unchanged. -/
theorem run (ρ : Dev nD → PrngReg)
    (hreal : ∀ c : Dev nD, (∀ i, ∃ a : ℝ, ax m c i = (a : EReal)) ∧ (∀ i, ∃ a : ℝ, ay m c i = (a : EReal))
      ∧ (∀ i, ∃ a : ℝ, av m c i = (a : EReal)) ∧ (∀ i, ∃ a : ℝ, aZ m c i = (a : EReal))) :
    θ_run defs (onTc (τ := τ) (main (F := Ideal))) ⟨m, fun _ => 0, ρ⟩ fun r => ∀ c : Dev nD,
      r.2.mem ((c : Thread nD τ).loc main_v6_0) = Spec.Gattn (ax m c) (ay m c) (aZ m c)
      ∧ r.2.mem ((c : Thread nD τ).loc main_v6_1) = Spec.Gout (ax m c) (ay m c) (av m c) (aZ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final3 m c),
      (h c).2.1.trans (final4 m c (hreal c).1 (hreal c).2.1 (hreal c).2.2.1 (hreal c).2.2.2), (h c).2.2⟩)
    (Value.run_blocks m ρ)

end Cert.KernelIdeal.KValue
end
-- ==== Proof.RefValue.lean ====
/-
  The reference program's two results, read one operation at a time, are the specification's two arrays.
-/
import proofs.«406827_j53678501265448_3_alg».proof.Proof.Gen.ReferenceIdeal.Read
import proofs.«406827_j53678501265448_3_alg».proof.Proof.Spec

noncomputable section

namespace Cert.ReferenceIdeal.RefValue

open Cert.ReferenceIdeal Cert.ReferenceIdeal.Gen Idealize.ShloMosaic Idealize.ShloMosaic.ValueIdx Cert.Hand

/-! ## The mean projection matrix -/

/-- The summed stack's read index at (k, j) and projection p is (p, k, j). -/
private theorem idx_v0 (k : Fin 1024) (j : Fin 32) (p : Fin 24) :
    Read.idx_main_v0 (ix2 k j) p = ix3 p k j :=
  funext fun a => Fin.ext (by match a with | ⟨0, _⟩ => rfl | ⟨1, _⟩ => rfl | ⟨2, _⟩ => rfl)

/-- Entry (k, j) of the quotient is the mean projection's entry. -/
private theorem proj_at (x3 : S24x1024x32.Idx → EReal) (k : Fin 1024) (j : Fin 32) :
    Read.val_main_v2 (F := Ideal) x3 (ix2 k j) = Spec.proj x3 k j := by
  rw [Read.val_main_v2_apply, Read.val_main_v0_apply, Read.val_main_v1_apply, Read.val_main_cst_0_apply,
    Read.val_main_cst_apply]
  simp only [Ideal.hostDivf_def, Ideal.ofBits_def, idx_v0]
  rfl

/-! ## The features and the scores -/

private theorem lidx_v3 (r : Fin 4096) (j : Fin 32) (k : Fin 1024) :
    Read.lidx_main_v3 (ix2 r j) k = ix2 r k :=
  funext fun a => Fin.ext (by match a with | ⟨0, _⟩ => rfl | ⟨1, _⟩ => rfl)

private theorem ridx_v3 (r : Fin 4096) (j : Fin 32) (k : Fin 1024) :
    Read.ridx_main_v3 (ix2 r j) k = ix2 k j :=
  funext fun a => Fin.ext (by match a with | ⟨0, _⟩ => rfl | ⟨1, _⟩ => rfl)

private theorem lidx_v4 (r : Fin 4096) (j : Fin 32) (k : Fin 1024) :
    Read.lidx_main_v4 (ix2 r j) k = ix2 r k :=
  funext fun a => Fin.ext (by match a with | ⟨0, _⟩ => rfl | ⟨1, _⟩ => rfl)

private theorem ridx_v4 (r : Fin 4096) (j : Fin 32) (k : Fin 1024) :
    Read.ridx_main_v4 (ix2 r j) k = ix2 k j :=
  funext fun a => Fin.ext (by match a with | ⟨0, _⟩ => rfl | ⟨1, _⟩ => rfl)

/-- Entry (r, j) of the first product is feature j of row r of x. -/
private theorem featX_at (x0 : S4096x1024.Idx → EReal) (x3 : S24x1024x32.Idx → EReal) (r : Fin 4096) (j : Fin 32) :
    Read.val_main_v3 (F := Ideal) x0 x3 (ix2 r j) = Spec.feat x0 x3 r j := by
  rw [Read.val_main_v3_apply]
  unfold Spec.feat
  refine Finset.sum_congr rfl fun k _ => ?_
  rw [lidx_v3, ridx_v3, proj_at]

/-- Entry (c, j) of the second product is feature j of row c of y. -/
private theorem featY_at (x1 : S4096x1024.Idx → EReal) (x3 : S24x1024x32.Idx → EReal) (c : Fin 4096) (j : Fin 32) :
    Read.val_main_v4 (F := Ideal) x1 x3 (ix2 c j) = Spec.feat x1 x3 c j := by
  rw [Read.val_main_v4_apply]
  unfold Spec.feat
  refine Finset.sum_congr rfl fun k _ => ?_
  rw [lidx_v4, ridx_v4, proj_at]

private theorem idx_v5 (j : Fin 32) (c : Fin 4096) :
    Read.idx_main_v5 (ix2 j c) = ix2 c j :=
  funext fun a => Fin.ext (by match a with | ⟨0, _⟩ => rfl | ⟨1, _⟩ => rfl)

/-- Entry (j, c) of the transpose is feature j of row c of y. -/
private theorem featYT_at (x1 : S4096x1024.Idx → EReal) (x3 : S24x1024x32.Idx → EReal) (j : Fin 32) (c : Fin 4096) :
    Read.val_main_v5 (F := Ideal) x1 x3 (ix2 j c) = Spec.feat x1 x3 c j := by
  rw [Read.val_main_v5_apply, idx_v5, featY_at]

private theorem lidx_v6 (r c : Fin 4096) (j : Fin 32) :
    Read.lidx_main_v6 (ix2 r c) j = ix2 r j :=
  funext fun a => Fin.ext (by match a with | ⟨0, _⟩ => rfl | ⟨1, _⟩ => rfl)

private theorem ridx_v6 (r c : Fin 4096) (j : Fin 32) :
    Read.ridx_main_v6 (ix2 r c) j = ix2 j c :=
  funext fun a => Fin.ext (by match a with | ⟨0, _⟩ => rfl | ⟨1, _⟩ => rfl)

/-- Entry (r, c) of the third product is the score of row r against row c. -/
private theorem score_at (x0 x1 : S4096x1024.Idx → EReal) (x3 : S24x1024x32.Idx → EReal) (r c : Fin 4096) :
    Read.val_main_v6 (F := Ideal) x0 x1 x3 (ix2 r c) = Spec.score x0 x1 x3 r c := by
  rw [Read.val_main_v6_apply]
  unfold Spec.score
  refine Finset.sum_congr rfl fun j _ => ?_
  rw [lidx_v6, ridx_v6, featX_at, featYT_at]

/-- The reference's scores are the specification's. -/
theorem attn_eq (x0 x1 : S4096x1024.Idx → EReal) (x3 : S24x1024x32.Idx → EReal) :
    Read.val_main_v6 (F := Ideal) x0 x1 x3 = Spec.Gattn x0 x1 x3 := by
  funext i
  rw [eq_ix2 i]
  exact score_at x0 x1 x3 (i 0) (i 1)

/-! ## The row maximum -/

/-- The reduced index r with column c put back is (r, c). -/
private theorem lift_row (h : S4096x4096.Reduces [1] S4096) (r : Fin 4096) (c : Fin (S4096x4096.size 1)) :
    h.lift (ix1 r) c = ix2 r (⟨c.val, c.isLt⟩ : Fin 4096) := by
  funext a; apply Fin.ext
  match a with
  | ⟨0, _⟩ => rfl
  | ⟨1, _⟩ => rfl

/-- The reduce with a maximum body over the columns, at row r, is the fold of max from minus infinity over the row's scores. -/
private theorem rowFold_at (x0 x1 : S4096x1024.Idx → EReal) (x3 : S24x1024x32.Idx → EReal) (r : Fin 4096) :
    Read.val_main_v7 (F := Ideal) x0 x1 x3 (ix1 r)
      = (Finset.univ : Finset (Fin 4096)).fold max Spec.negInfE (fun c => Spec.score x0 x1 x3 r c) := by
  have h : S4096x4096.Reduces [1] S4096 := by decide
  unfold Read.val_main_v7
  rw [Host.reduce_eq_fold_single FloatOps.maximumf _ _ reducesTo_S4096x4096_S4096_d1 h h_S_]
  have hf : (Read.val_main_v6 (F := Ideal) x0 x1 x3 ∘ h.lift (ix1 r)) = fun c : Fin 4096 => Spec.score x0 x1 x3 r c :=
    funext fun c => by rw [Function.comp_apply, lift_row, score_at]; rfl
  exact congrArg (fun f => Finset.fold max Spec.negInfE f (Finset.univ : Finset (Fin 4096))) hf

/-- The maximum with the broadcast minus infinity, at row r, is the row's largest score. -/
private theorem rowMax_at (x0 x1 : S4096x1024.Idx → EReal) (x3 : S24x1024x32.Idx → EReal) (r : Fin 4096) :
    Read.val_main_v9 (F := Ideal) x0 x1 x3 (ix1 r) = Spec.rowMax x0 x1 x3 r := by
  rw [Read.val_main_v9_apply, Read.val_main_v8_apply, Read.val_main_cst_2_apply, rowFold_at]
  rfl

private theorem idx_v10 (r : Fin 4096) (z : Fin 1) : Read.idx_main_v10 (ix2 r z) = ix1 r :=
  funext fun a => Fin.ext (by match a with | ⟨0, _⟩ => rfl)

private theorem idx_v11 (r c : Fin 4096) : Read.idx_main_v11 (ix2 r c) = ix2 r (⟨0, Nat.one_pos⟩ : Fin 1) :=
  funext fun a => Fin.ext (by match a with | ⟨0, _⟩ => rfl | ⟨1, _⟩ => rfl)

/-- The row maximum broadcast along the row: entry (r, c) is the largest score of row r. -/
private theorem rowMaxB_at (x0 x1 : S4096x1024.Idx → EReal) (x3 : S24x1024x32.Idx → EReal) (r c : Fin 4096) :
    Read.val_main_v11 (F := Ideal) x0 x1 x3 (ix2 r c) = Spec.rowMax x0 x1 x3 r := by
  rw [Read.val_main_v11_apply, idx_v11, Read.val_main_v10_apply, idx_v10, rowMax_at]

/-! ## The shifted exponentials and their row sums -/

/-- Entry (r, c) of the exponential is the shifted exponential of the score. -/
private theorem expo_at (x0 x1 : S4096x1024.Idx → EReal) (x3 : S24x1024x32.Idx → EReal) (r c : Fin 4096) :
    Read.val_main_v13 (F := Ideal) x0 x1 x3 (ix2 r c) = Spec.expo x0 x1 x3 r c := by
  rw [Read.val_main_v13_apply, Read.val_main_v12_apply, score_at, rowMaxB_at]
  rfl

private theorem idx_v14 (r c : Fin 4096) : Read.idx_main_v14 (ix1 r) c = ix2 r c :=
  funext fun a => Fin.ext (by match a with | ⟨0, _⟩ => rfl | ⟨1, _⟩ => rfl)

/-- The sum over the columns, at row r, is the softmax denominator of the row. -/
private theorem denom_at (x0 x1 : S4096x1024.Idx → EReal) (x3 : S24x1024x32.Idx → EReal) (r : Fin 4096) :
    Read.val_main_v14 (F := Ideal) x0 x1 x3 (ix1 r) = Spec.denom x0 x1 x3 r := by
  rw [Read.val_main_v14_apply, Read.val_main_cst_3_apply]
  unfold Spec.denom
  refine congrArg (_ + ·) (Finset.sum_congr rfl fun c _ => ?_)
  rw [idx_v14, expo_at]

private theorem idx_v15 (r : Fin 4096) (z : Fin 1) : Read.idx_main_v15 (ix2 r z) = ix1 r :=
  funext fun a => Fin.ext (by match a with | ⟨0, _⟩ => rfl)

private theorem idx_v16 (r c : Fin 4096) : Read.idx_main_v16 (ix2 r c) = ix2 r (⟨0, Nat.one_pos⟩ : Fin 1) :=
  funext fun a => Fin.ext (by match a with | ⟨0, _⟩ => rfl | ⟨1, _⟩ => rfl)

/-- The denominator broadcast along the row. -/
private theorem denomB_at (x0 x1 : S4096x1024.Idx → EReal) (x3 : S24x1024x32.Idx → EReal) (r c : Fin 4096) :
    Read.val_main_v16 (F := Ideal) x0 x1 x3 (ix2 r c) = Spec.denom x0 x1 x3 r := by
  rw [Read.val_main_v16_apply, idx_v16, Read.val_main_v15_apply, idx_v15, denom_at]

/-- Entry (r, c) of the quotient is the softmax weight. -/
private theorem weight_at (x0 x1 : S4096x1024.Idx → EReal) (x3 : S24x1024x32.Idx → EReal) (r c : Fin 4096) :
    Read.val_main_v17 (F := Ideal) x0 x1 x3 (ix2 r c)
      = Ideal.div (Spec.expo x0 x1 x3 r c) (Spec.denom x0 x1 x3 r) := by
  rw [Read.val_main_v17_apply, expo_at, denomB_at]
  rfl

/-! ## The weighted sum -/

private theorem lidx_v18 (r : Fin 4096) (d : Fin 1024) (c : Fin 4096) :
    Read.lidx_main_v18 (ix2 r d) c = ix2 r c :=
  funext fun a => Fin.ext (by match a with | ⟨0, _⟩ => rfl | ⟨1, _⟩ => rfl)

private theorem ridx_v18 (r : Fin 4096) (d : Fin 1024) (c : Fin 4096) :
    Read.ridx_main_v18 (ix2 r d) c = ix2 c d :=
  funext fun a => Fin.ext (by match a with | ⟨0, _⟩ => rfl | ⟨1, _⟩ => rfl)

/-- Entry (r, d) of the last product is row r of the softmax weights times column d of v. -/
private theorem out_at (x0 x1 x2 : S4096x1024.Idx → EReal) (x3 : S24x1024x32.Idx → EReal) (r : Fin 4096) (d : Fin 1024) :
    Read.val_main_v18 (F := Ideal) x0 x1 x2 x3 (ix2 r d) = Spec.attnOut x0 x1 x2 x3 r d := by
  rw [Read.val_main_v18_apply]
  unfold Spec.attnOut
  refine Finset.sum_congr rfl fun c _ => ?_
  rw [lidx_v18, ridx_v18, weight_at]

/-- The reference's softmax-weighted sum is the specification's. -/
theorem out_eq (x0 x1 x2 : S4096x1024.Idx → EReal) (x3 : S24x1024x32.Idx → EReal) :
    Read.val_main_v18 (F := Ideal) x0 x1 x2 x3 = Spec.Gout x0 x1 x2 x3 := by
  funext i
  rw [eq_ix2 i]
  exact out_at x0 x1 x2 x3 (i 0) (i 1)

end Cert.ReferenceIdeal.RefValue

end
-- ==== Proof.Finite.lean ====
/-
  The precondition says every entry of the four argument arrays has absolute value below plus infinity; over the extended
  reals that means every entry is a real number.
-/
import proofs.«406827_j53678501265448_3_alg».proof.Defs
import Idealize.ShloMosaic.Lib.ReduceAll
import Idealize.ShloMosaic.Lib.ValueIdx
import Idealize.ShloMosaic.PureOps.Ideal.Laws

noncomputable section

namespace Cert.Hand.Finite

open Idealize.ShloMosaic Idealize.SL.Sem

variable [Cert.Pre_finite_inputs.Facts]

/-- An extended real whose absolute value max x (-x) is below ⊤ is neither ⊥ nor ⊤, so it is a real number. -/
private theorem real_of_abs_lt_top (x : EReal) (h : max x (-x) < ⊤) : ∃ a : ℝ, x = (a : EReal) := by
  induction x using EReal.rec with
  | bot => simp at h
  | top => simp at h
  | coe r => exact ⟨r, rfl⟩

/-- The f32 pattern 0x7F800000 (sign 0, exponent all ones, fraction 0) is the extended real ⊤. -/
private theorem inf_lit : Ideal.ofBits .f32 0x7F800000#32 = (⊤ : EReal) := by
  simp [Ideal.ofBits, Ideal.ieee]

/-- One element: the comparison |x| < +∞ being the word 1 says max x (-x) < ⊤, so x is a real number. -/
private theorem elem_real (x : Ideal .f32)
    (h : FloatOps.cmpf .olt (FloatOps.hostAbsf x) (FloatOps.ofBits (F := Ideal) .f32 0x7F800000#32) = 1#1) :
    ∃ a : ℝ, x = (a : EReal) := by
  apply real_of_abs_lt_top
  rw [Ideal.hostAbsf_def, Ideal.cmpf_def, Ideal.absf_def] at h
  change Ideal.cmp .olt (max x (-x)) (Ideal.ofBits .f32 0x7F800000#32) = 1#1 at h
  rw [inf_lit] at h
  unfold Ideal.cmp at h
  by_contra hn
  simp [hn] at h

open Cert.Pre_finite_inputs in
/-- The conjunction over all entries of an array of any shape of |x i| < +∞, when it is the word 1, says every entry of
    the array is a real number: the conjunction being 1 gives each comparison word 1, the scalar +∞ spread over the shape
    reads +∞ at every index, and `elem_real` reads the element. -/
private theorem all_lt_inf_real {S : Shape} {axes : List (Fin S.rank)}
    (hb : S_.BroadcastsInDim S (![] : Fin 0 → Fin S.rank)) (hr : S.ReducesTo axes S_) (hu : 0 < S_.numel)
    (x : FVec Ideal S .f32)
    (h : Host.reduce IntOp.andi (cmpf .olt (Host.absf x) (broadcastInDim S ![] hb (constant S_ .f32 0x7F800000#32)))
          (constantI S_ 1 1#1) hr hu ValueIdx.ix0 = 1#1) :
    ∀ i, ∃ a : ℝ, x i = (a : EReal) := by
  intro i
  -- the rank-0 result shape has one index
  haveI : Subsingleton S_.Idx := ⟨fun a b => funext fun d => d.elim0⟩
  have e := Host.reduce_andi_all _ _ hr hu ValueIdx.ix0 h i
  exact elem_real (x i) e

/-- Under the precondition every entry of every argument array of the idealized kernel is a real number. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ a : ℝ, m ((c.tc : Thread Cert.KernelIdeal.nD Cert.KernelIdeal.τ).loc Cert.KernelIdeal.main_arg0) i = (a : EReal))
    ∧ (∀ i, ∃ a : ℝ, m ((c.tc : Thread Cert.KernelIdeal.nD Cert.KernelIdeal.τ).loc Cert.KernelIdeal.main_arg1) i = (a : EReal))
    ∧ (∀ i, ∃ a : ℝ, m ((c.tc : Thread Cert.KernelIdeal.nD Cert.KernelIdeal.τ).loc Cert.KernelIdeal.main_arg2) i = (a : EReal))
    ∧ (∀ i, ∃ a : ℝ, m ((c.tc : Thread Cert.KernelIdeal.nD Cert.KernelIdeal.τ).loc Cert.KernelIdeal.main_arg3) i = (a : EReal)) := by
  -- the precondition at the one index of its rank-0 result: a conjunction of four words, each a conjunction over an array
  have h := congrFun (hpre c) ValueIdx.ix0
  dsimp only [Cert.Pre_finite_inputs.fn, Cert.Pre_finite_inputs.fn_part1] at h
  obtain ⟨h012, h3⟩ := IntOp.andi_eq_one.1 h
  obtain ⟨h01, h2⟩ := IntOp.andi_eq_one.1 h012
  obtain ⟨h0, h1⟩ := IntOp.andi_eq_one.1 h01
  exact ⟨all_lt_inf_real _ _ _ _ h0, all_lt_inf_real _ _ _ _ h1, all_lt_inf_real _ _ _ _ h2, all_lt_inf_real _ _ _ _ h3⟩

end Cert.Hand.Finite

end
-- ==== Proof.lean ====
/-
  The kernel program computes attention = (x P)(y P)ᵀ and softmax(attention) v, with P the mean of the 24 projection
  matrices of Z, by a grid of (query tile, key block) points: each point writes its 1024-by-1024 block of scores, and over
  the four key blocks of a query tile it carries a running row maximum m, denominator l and numerator acc,
      m' = max m (row maximum of the block),  l' = exp (m - m') l + Σ exp (s - m'),  acc' = exp (m - m') acc + Σ exp (s - m') v,
  and writes acc / l at the last key block. The reference computes the scores from x P and y P with 32 features (the kernel
  pads P with 96 zero columns, which add nothing to a dot product), subtracts the row maximum, exponentiates, divides by
  the row sum and multiplies by v.
  Over the extended reals, with every argument entry a real number (the precondition), the scores are real, every running
  maximum is real, exp (a - b) exp (b - c) = exp (a - c) turns the rescaled sums into sums of exp (s - m') over all blocks
  seen so far, the four blocks of 1024 make up the row of 4096, and a common shift of the exponent cancels between
  numerator and denominator: the kernel's quotient is the reference's softmax-weighted sum. The scores themselves agree
  with no hypothesis. Both programs' frames are their runs with the results dropped; the idealization rewrote nothing.
-/
import proofs.«406827_j53678501265448_3_alg».proof.Defs
import proofs.«406827_j53678501265448_3_alg».proof.Proof.Gen.Kernel
import proofs.«406827_j53678501265448_3_alg».proof.Proof.Gen.Kernel.Skeleton
import proofs.«406827_j53678501265448_3_alg».proof.Proof.Gen.Kernel.Launch
import proofs.«406827_j53678501265448_3_alg».proof.Proof.Gen.Kernel.Points
import proofs.«406827_j53678501265448_3_alg».proof.Proof.Gen.Kernel.Frame
import proofs.«406827_j53678501265448_3_alg».proof.Proof.Gen.KernelIdeal
import proofs.«406827_j53678501265448_3_alg».proof.Proof.Gen.KernelIdeal.Skeleton
import proofs.«406827_j53678501265448_3_alg».proof.Proof.Gen.KernelIdeal.Launch
import proofs.«406827_j53678501265448_3_alg».proof.Proof.Gen.KernelIdeal.Points
import proofs.«406827_j53678501265448_3_alg».proof.Proof.Gen.KernelIdeal.Frame
import proofs.«406827_j53678501265448_3_alg».proof.Proof.Gen.ReferenceIdeal
import proofs.«406827_j53678501265448_3_alg».proof.Proof.Gen.Pre_finite_inputs
import proofs.«406827_j53678501265448_3_alg».proof.Proof.Gen.KernelIdeal.Value
import proofs.«406827_j53678501265448_3_alg».proof.Proof.Gen.ReferenceIdeal.Run
import proofs.«406827_j53678501265448_3_alg».proof.Proof.Gen.ReferenceIdeal.Read
import proofs.«406827_j53678501265448_3_alg».proof.Proof.KValue
import proofs.«406827_j53678501265448_3_alg».proof.Proof.RefValue
import proofs.«406827_j53678501265448_3_alg».proof.Proof.Finite
import Idealize.ShloMosaic.Adequacy
import Idealize.ShloMosaic.Init

noncomputable section

namespace Cert.Proof

open Idealize.ShloMosaic Idealize.ShloMosaic.TcCoe Idealize.SL.Sem Cert.Hand

/-- The word-level kernel program terminates without fault and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the specification's two arrays of the
    arguments: the kernel by the block-by-block recurrences (its argument entries are real by the precondition), the
    reference by reading its operations one at a time. -/
theorem algebraic : Cert.algebraic_KernelIdeal_ReferenceIdeal := by
  intro m ρ m' ρ' hpre hagree
  refine ⟨_, _, Cert.KernelIdeal.KValue.run m ρ (fun c => Finite.args_real m hpre c), ?_⟩
  refine (θ_run Cert.ReferenceIdeal.defs _ _).mono (fun _ h c => ⟨?_, ?_, (h c).2.2⟩)
    (Cert.ReferenceIdeal.Value.run (F := Ideal) m' ρ')
  · refine (h c).1.trans ?_
    rw [Cert.ReferenceIdeal.Read.val_main_v6_eq, Cert.ReferenceIdeal.RefValue.attn_eq, (hagree c).1, (hagree c).2.1, (hagree c).2.2.2]
  · refine (h c).2.1.trans ?_
    rw [Cert.ReferenceIdeal.Read.val_main_v18_eq, Cert.ReferenceIdeal.RefValue.out_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
